-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S2x320000 : Shape := ⟨2, ![2, 320000]⟩
abbrev S320000 : Shape := ⟨1, ![320000]⟩
abbrev S5x256x256 : Shape := ⟨3, ![5, 256, 256]⟩
abbrev S256 : Shape := ⟨1, ![256]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S5x256x256 : S_.BroadcastsInDim S5x256x256 (![] : Fin 0 → Fin S5x256x256.rank)
  reducesTo_S5x256x256_S_d0_1_2 : S5x256x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S40000x256 .f32) (main_arg1 : IVec S2x320000 32) (main_arg2 : FVec F S320000 .f32) (main_arg3 : FVec F S5x256x256 .f32) (main_arg4 : FVec F S256 .f32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S5x256x256 .f32 := Host.absf main_arg3
  let main_cst_2 : FVec F S_ .f32 := constant S_ .f32 0x7F800000#32
  let main_v10 : FVec F S5x256x256 .f32 := broadcastInDim S5x256x256 ![] bcast_S_S5x256x256 main_cst_2
  let main_v11 : IVec S5x256x256 1 := cmpf .olt main_v9 main_v10
  let main_c_3 : IVec S_ 1 := constantI S_ 1 1#1
  let main_v12 : IVec S_ 1 := (fun x v => Host.reduce IntOp.andi x v reducesTo_S5x256x256_S_d0_1_2 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S40000x256 : Shape := ⟨2, ![40000, 256]⟩
abbrev S2x320000 : Shape := ⟨2, ![2, 320000]⟩
abbrev S320000 : Shape := ⟨1, ![320000]⟩
abbrev S5x256x256 : Shape := ⟨3, ![5, 256, 256]⟩
abbrev S256 : Shape := ⟨1, ![256]⟩
abbrev S1x320000 : Shape := ⟨2, ![1, 320000]⟩
abbrev S_ : Shape := ⟨0, ![]⟩
abbrev S40000 : Shape := ⟨1, ![40000]⟩
abbrev S320000x1 : Shape := ⟨2, ![320000, 1]⟩
abbrev S320000x256 : Shape := ⟨2, ![320000, 256]⟩
abbrev S1x40000x256 : Shape := ⟨3, ![1, 40000, 256]⟩
abbrev S5x40000x256 : Shape := ⟨3, ![5, 40000, 256]⟩
abbrev S1x4000x256 : Shape := ⟨3, ![1, 4000, 256]⟩
abbrev S1x256x256 : Shape := ⟨3, ![1, 256, 256]⟩
abbrev S4000x256 : Shape := ⟨2, ![4000, 256]⟩
abbrev S256x256 : Shape := ⟨2, ![256, 256]⟩
abbrev S1x256 : Shape := ⟨2, ![1, 256]⟩

abbrev nBuf : Space → Nat
  | .hbm => 136
  | .vmem => 8
  | .smem => 0
  | _ => 0

abbrev hbmTy0_0 (i : Nat) : BufTy := match i % 128 with
  | 0 => ⟨S40000x256, .f32⟩
  | 1 => ⟨S2x320000, .i32⟩
  | 2 => ⟨S320000, .f32⟩
  | 3 => ⟨S5x256x256, .f32⟩
  | 4 => ⟨S256, .f32⟩
  | 5 => ⟨S1x320000, .i32⟩
  | 6 => ⟨S320000, .i32⟩
  | 7 => ⟨S1x320000, .i32⟩
  | 8 => ⟨S320000, .i32⟩
  | 9 => ⟨S320000, .i1⟩
  | 10 => ⟨S_, .f32⟩
  | 11 => ⟨S_, .f32⟩
  | 12 => ⟨S320000, .f32⟩
  | 13 => ⟨S320000, .f32⟩
  | 14 => ⟨S320000, .f32⟩
  | 15 => ⟨S_, .f32⟩
  | 16 => ⟨S40000, .f32⟩
  | 17 => ⟨S320000x1, .i32⟩
  | 18 => ⟨S40000, .f32⟩
  | 19 => ⟨S_, .f32⟩
  | 20 => ⟨S40000, .f32⟩
  | 21 => ⟨S40000, .i1⟩
  | 22 => ⟨S_, .f32⟩
  | 23 => ⟨S40000, .f32⟩
  | 24 => ⟨S40000, .f32⟩
  | 25 => ⟨S40000, .f32⟩
  | 26 => ⟨S_, .f32⟩
  | 27 => ⟨S_, .f32⟩
  | 28 => ⟨S40000, .f32⟩
  | 29 => ⟨S40000, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .f32⟩
  | 39 => ⟨S320000, .f32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S320000x1, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x256, .f32⟩
  | 61 => ⟨S320000x256, .f32⟩
  | 62 => ⟨S320000x256, .f32⟩
  | 63 => ⟨S_, .f32⟩
  | 64 => ⟨S40000x256, .f32⟩
  | 65 => ⟨S320000x1, .i32⟩
  | 66 => ⟨S40000x256, .f32⟩
  | 67 => ⟨S320000x1, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x256, .f32⟩
  | 77 => ⟨S320000x256, .f32⟩
  | 78 => ⟨S320000x256, .f32⟩
  | 79 => ⟨S_, .f32⟩
  | 80 => ⟨S40000x256, .f32⟩
  | 81 => ⟨S320000x1, .i32⟩
  | 82 => ⟨S40000x256, .f32⟩
  | 83 => ⟨S_, .f32⟩
  | 84 => ⟨S40000x256, .f32⟩
  | 85 => ⟨S40000x256, .f32⟩
  | 86 => ⟨S40000x256, .f32⟩
  | 87 => ⟨S320000x1, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x256, .f32⟩
  | 97 => ⟨S320000x256, .f32⟩
  | 98 => ⟨S320000x256, .f32⟩
  | 99 => ⟨S_, .f32⟩
  | 100 => ⟨S40000x256, .f32⟩
  | 101 => ⟨S320000x1, .i32⟩
  | 102 => ⟨S40000x256, .f32⟩
  | 103 => ⟨S_, .f32⟩
  | 104 => ⟨S40000x256, .f32⟩
  | 105 => ⟨S40000x256, .f32⟩
  | 106 => ⟨S40000x256, .f32⟩
  | 107 => ⟨S320000x1, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x256, .f32⟩
  | 117 => ⟨S320000x256, .f32⟩
  | 118 => ⟨S320000x256, .f32⟩
  | 119 => ⟨S_, .f32⟩
  | 120 => ⟨S40000x256, .f32⟩
  | 121 => ⟨S320000x1, .i32⟩
  | 122 => ⟨S40000x256, .f32⟩
  | 123 => ⟨S_, .f32⟩
  | 124 => ⟨S40000x256, .f32⟩
  | 125 => ⟨S40000x256, .f32⟩
  | 126 => ⟨S40000x256, .f32⟩
  | 127 => ⟨S1x40000x256, .f32⟩
  | _ => ⟨S40000x256, .f32⟩

abbrev hbmTy0_1 (i : Nat) : BufTy := match i % 128 with
  | 0 => ⟨S1x40000x256, .f32⟩
  | 1 => ⟨S1x40000x256, .f32⟩
  | 2 => ⟨S1x40000x256, .f32⟩
  | 3 => ⟨S1x40000x256, .f32⟩
  | 4 => ⟨S5x40000x256, .f32⟩
  | 5 => ⟨S5x40000x256, .bf16⟩
  | 6 => ⟨S5x256x256, .bf16⟩
  | 7 => ⟨S40000x256, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | .local _ .vmem, ⟨0, _⟩ => ⟨S1x4000x256, .bf16⟩
  | .local _ .vmem, ⟨1, _⟩ => ⟨S1x4000x256, .bf16⟩
  | .local _ .vmem, ⟨2, _⟩ => ⟨S1x256x256, .bf16⟩
  | .local _ .vmem, ⟨3, _⟩ => ⟨S1x256x256, .bf16⟩
  | .local _ .vmem, ⟨4, _⟩ => ⟨S256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_14 : Ref sig .tc := ⟨.hbm, 88, rfl⟩
abbrev main_v63 : Ref sig .tc := ⟨.hbm, 89, rfl⟩
abbrev main_v64 : Ref sig .tc := ⟨.hbm, 90, rfl⟩
abbrev main_c_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_17 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_18 : Ref sig .tc := ⟨.hbm, 108, rfl⟩
abbrev main_v79 : Ref sig .tc := ⟨.hbm, 109, rfl⟩
abbrev main_v80 : Ref sig .tc := ⟨.hbm, 110, rfl⟩
abbrev main_c_19 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![10, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S40000 : S_.BroadcastsInDim S40000 (![] : Fin 0 → Fin S40000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S40000x256 : S_.BroadcastsInDim S40000x256 (![] : Fin 0 → Fin S40000x256.rank)
  bcast_S40000x256_S1x40000x256_1_2 : S40000x256.BroadcastsInDim S1x40000x256 (![1, 2] : Fin 2 → Fin S1x40000x256.rank)
  concatenates_S1x40000x256_S1x40000x256_S1x40000x256_S1x40000x256_S1x40000x256_S5x40000x256_d0 : Shape.Concatenates [S1x40000x256, S1x40000x256, S1x40000x256, S1x40000x256, S1x40000x256] S5x40000x256 0
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S1x4000x256_S1x4000x256_0_0_0 : ∀ a, (![0, 0, 0] : Fin 3 → Nat) a + S1x4000x256.size a ≤ S1x4000x256.size a
  h_S1x4000x256 : 0 < S1x4000x256.numel
  shapeCasts_S1x4000x256_S4000x256 : S1x4000x256.ShapeCasts S4000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  scatter_S40000_S320000x1_S320000_n_0_0_1_wf : ScatterDims.WF S40000 S320000x1 S320000 [] [0] [0] 1
  gather_S40000_S320000x1_S320000_n_0_n_n_0_1_1_wf : GatherDims.WF S40000 S320000x1 S320000 [] [0] [] [0] [] 1 ![1]
  gather_S40000x256_S320000x1_S320000x256_1_0_n_n_0_1_1256_wf : GatherDims.WF S40000x256 S320000x1 S320000x256 [1] [0] [] [0] [] 1 ![1, 256]
  scatter_S40000x256_S320000x1_S320000x256_1_0_0_1_wf : ScatterDims.WF S40000x256 S320000x1 S320000x256 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x256.size a ≤ S5x40000x256.size a
  hwx0_0 : ∀ i : grid0.Coords, EltTy.bits .bf16 = 32 ∨ (Rect.block (s := S5x40000x256) S1x4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S5x256x256.size a
  hwx0_1 : ∀ i : grid0.Coords, EltTy.bits .bf16 = 32 ∨ (Rect.block (s := S5x256x256) S1x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S40000x256.size a
  hwx0_3 : ∀ i : grid0.Coords, EltTy.bits .f32 = 32 ∨ (Rect.block (s := S40000x256) S4000x256.size (cc0_transform_3 i) (hinb0_3 i)).WholeWords (EltTy.packing .f32)

variable [Facts₀]

def scatter_S40000_S320000x1_S320000_n_0_0_1 : ScatterDims S40000 S320000x1 S320000 where
  updateWindowDims := []
  insertedWindowDims := [0]
  scatterDimsToOperandDims := [0]
  indexVectorDim := 1
  wf := scatter_S40000_S320000x1_S320000_n_0_0_1_wf
def gather_S40000_S320000x1_S320000_n_0_n_n_0_1_1 : GatherDims S40000 S320000x1 S320000 where
  offsetDims := []
  collapsedSliceDims := [0]
  operandBatchingDims := []
  startIndicesBatchingDims := []
  startIndexMap := [0]
  indexVectorDim := 1
  sliceSizes := ![1]
  wf := gather_S40000_S320000x1_S320000_n_0_n_n_0_1_1_wf
def gather_S40000x256_S320000x1_S320000x256_1_0_n_n_0_1_1256 : GatherDims S40000x256 S320000x1 S320000x256 where
  offsetDims := [1]
  collapsedSliceDims := [0]
  operandBatchingDims := []
  startIndicesBatchingDims := []
  startIndexMap := [0]
  indexVectorDim := 1
  sliceSizes := ![1, 256]
  wf := gather_S40000x256_S320000x1_S320000x256_1_0_n_n_0_1_1256_wf
def scatter_S40000x256_S320000x1_S320000x256_1_0_0_1 : ScatterDims S40000x256 S320000x1 S320000x256 where
  updateWindowDims := [1]
  insertedWindowDims := [0]
  scatterDimsToOperandDims := [0]
  indexVectorDim := 1
  wf := scatter_S40000x256_S320000x1_S320000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v100) S1x4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v102) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S40000x256 : Shape := ⟨2, ![40000, 256]⟩
abbrev S2x320000 : Shape := ⟨2, ![2, 320000]⟩
abbrev S320000 : Shape := ⟨1, ![320000]⟩
abbrev S5x256x256 : Shape := ⟨3, ![5, 256, 256]⟩
abbrev S256 : Shape := ⟨1, ![256]⟩
abbrev S1x320000 : Shape := ⟨2, ![1, 320000]⟩
abbrev S_ : Shape := ⟨0, ![]⟩
abbrev S40000 : Shape := ⟨1, ![40000]⟩
abbrev S320000x1 : Shape := ⟨2, ![320000, 1]⟩
abbrev S1x256x256 : Shape := ⟨3, ![1, 256, 256]⟩
abbrev S256x256 : Shape := ⟨2, ![256, 256]⟩
abbrev S320000x256 : Shape := ⟨2, ![320000, 256]⟩
abbrev S1x256 : Shape := ⟨2, ![1, 256]⟩

abbrev nBuf : Space → Nat
  | .hbm => 149
  | .vmem => 0
  | .smem => 0
  | _ => 0

abbrev hbmTy0_0 (i : Nat) : BufTy := match i % 128 with
  | 0 => ⟨S40000x256, .f32⟩
  | 1 => ⟨S2x320000, .i32⟩
  | 2 => ⟨S320000, .f32⟩
  | 3 => ⟨S5x256x256, .f32⟩
  | 4 => ⟨S256, .f32⟩
  | 5 => ⟨S1x320000, .i32⟩
  | 6 => ⟨S320000, .i32⟩
  | 7 => ⟨S1x320000, .i32⟩
  | 8 => ⟨S320000, .i32⟩
  | 9 => ⟨S320000, .i1⟩
  | 10 => ⟨S_, .f32⟩
  | 11 => ⟨S_, .f32⟩
  | 12 => ⟨S320000, .f32⟩
  | 13 => ⟨S320000, .f32⟩
  | 14 => ⟨S320000, .f32⟩
  | 15 => ⟨S_, .f32⟩
  | 16 => ⟨S40000, .f32⟩
  | 17 => ⟨S320000x1, .i32⟩
  | 18 => ⟨S40000, .f32⟩
  | 19 => ⟨S_, .f32⟩
  | 20 => ⟨S40000, .f32⟩
  | 21 => ⟨S40000, .i1⟩
  | 22 => ⟨S_, .f32⟩
  | 23 => ⟨S40000, .f32⟩
  | 24 => ⟨S40000, .f32⟩
  | 25 => ⟨S40000, .f32⟩
  | 26 => ⟨S_, .f32⟩
  | 27 => ⟨S_, .f32⟩
  | 28 => ⟨S40000, .f32⟩
  | 29 => ⟨S40000, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .f32⟩
  | 39 => ⟨S320000, .f32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S1x256x256, .f32⟩
  | 52 => ⟨S256x256, .f32⟩
  | 53 => ⟨S40000x256, .f32⟩
  | 54 => ⟨S320000x1, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S320000x256, .f32⟩
  | 65 => ⟨S320000x256, .f32⟩
  | 66 => ⟨S_, .f32⟩
  | 67 => ⟨S40000x256, .f32⟩
  | 68 => ⟨S320000x1, .i32⟩
  | 69 => ⟨S40000x256, .f32⟩
  | 70 => ⟨S1x256x256, .f32⟩
  | 71 => ⟨S256x256, .f32⟩
  | 72 => ⟨S40000x256, .f32⟩
  | 73 => ⟨S40000x256, .f32⟩
  | 74 => ⟨S320000x1, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x256, .f32⟩
  | 84 => ⟨S320000x256, .f32⟩
  | 85 => ⟨S320000x256, .f32⟩
  | 86 => ⟨S_, .f32⟩
  | 87 => ⟨S40000x256, .f32⟩
  | 88 => ⟨S320000x1, .i32⟩
  | 89 => ⟨S40000x256, .f32⟩
  | 90 => ⟨S_, .f32⟩
  | 91 => ⟨S40000x256, .f32⟩
  | 92 => ⟨S40000x256, .f32⟩
  | 93 => ⟨S40000x256, .f32⟩
  | 94 => ⟨S1x256x256, .f32⟩
  | 95 => ⟨S256x256, .f32⟩
  | 96 => ⟨S40000x256, .f32⟩
  | 97 => ⟨S40000x256, .f32⟩
  | 98 => ⟨S320000x1, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x256, .f32⟩
  | 108 => ⟨S320000x256, .f32⟩
  | 109 => ⟨S320000x256, .f32⟩
  | 110 => ⟨S_, .f32⟩
  | 111 => ⟨S40000x256, .f32⟩
  | 112 => ⟨S320000x1, .i32⟩
  | 113 => ⟨S40000x256, .f32⟩
  | 114 => ⟨S_, .f32⟩
  | 115 => ⟨S40000x256, .f32⟩
  | 116 => ⟨S40000x256, .f32⟩
  | 117 => ⟨S40000x256, .f32⟩
  | 118 => ⟨S1x256x256, .f32⟩
  | 119 => ⟨S256x256, .f32⟩
  | 120 => ⟨S40000x256, .f32⟩
  | 121 => ⟨S40000x256, .f32⟩
  | 122 => ⟨S320000x1, .f32⟩
  | 123 => ⟨S_, .i32⟩
  | 124 => ⟨S320000, .i32⟩
  | 125 => ⟨S320000, .i1⟩
  | 126 => ⟨S_, .i32⟩
  | 127 => ⟨S320000, .i32⟩
  | _ => ⟨S40000x256, .f32⟩

abbrev hbmTy0_1 (i : Nat) : BufTy := match i % 128 with
  | 0 => ⟨S320000, .i32⟩
  | 1 => ⟨S320000, .i32⟩
  | 2 => ⟨S320000x1, .i32⟩
  | 3 => ⟨S320000x256, .f32⟩
  | 4 => ⟨S320000x256, .f32⟩
  | 5 => ⟨S320000x256, .f32⟩
  | 6 => ⟨S_, .f32⟩
  | 7 => ⟨S40000x256, .f32⟩
  | 8 => ⟨S320000x1, .i32⟩
  | 9 => ⟨S40000x256, .f32⟩
  | 10 => ⟨S_, .f32⟩
  | 11 => ⟨S40000x256, .f32⟩
  | 12 => ⟨S40000x256, .f32⟩
  | 13 => ⟨S40000x256, .f32⟩
  | 14 => ⟨S1x256x256, .f32⟩
  | 15 => ⟨S256x256, .f32⟩
  | 16 => ⟨S40000x256, .f32⟩
  | 17 => ⟨S40000x256, .f32⟩
  | 18 => ⟨S1x256, .f32⟩
  | 19 => ⟨S40000x256, .f32⟩
  | 20 => ⟨S40000x256, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_18 : Ref sig .tc := ⟨.hbm, 123, rfl⟩
abbrev main_v94 : Ref sig .tc := ⟨.hbm, 124, rfl⟩
abbrev main_v95 : Ref sig .tc := ⟨.hbm, 125, rfl⟩
abbrev main_c_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_20 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S40000 : S_.BroadcastsInDim S40000 (![] : Fin 0 → Fin S40000.rank)
  bcast_S320000_S320000x1_0 : S320000.BroadcastsInDim S320000x1 (![0] : Fin 1 → Fin S320000x1.rank)
  slices_S5x256x256_S1x256x256_0_0_0 : S5x256x256.Slices ![0, 0, 0] S1x256x256
  shapeCasts_S1x256x256_S256x256 : S1x256x256.ShapeCasts S256x256
  bcast_S320000x1_S320000x256_0_1 : S320000x1.BroadcastsInDim S320000x256 (![0, 1] : Fin 2 → Fin S320000x256.rank)
  bcast_S_S40000x256 : S_.BroadcastsInDim S40000x256 (![] : Fin 0 → Fin S40000x256.rank)
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  scatter_S40000_S320000x1_S320000_n_0_0_1_wf : ScatterDims.WF S40000 S320000x1 S320000 [] [0] [0] 1
  gather_S40000_S320000x1_S320000_n_0_n_n_0_1_1_wf : GatherDims.WF S40000 S320000x1 S320000 [] [0] [] [0] [] 1 ![1]
  dot_S40000x256_S256x256_S40000x256_1_0_0_1_n_n_wf : DotDims.WF S40000x256 S256x256 S40000x256 [1] [0] [0] [1] [] []
  gather_S40000x256_S320000x1_S320000x256_1_0_n_n_0_1_1256_wf : GatherDims.WF S40000x256 S320000x1 S320000x256 [1] [0] [] [0] [] 1 ![1, 256]
  scatter_S40000x256_S320000x1_S320000x256_1_0_0_1_wf : ScatterDims.WF S40000x256 S320000x1 S320000x256 [1] [0] [0] 1

variable [Facts₀]

def scatter_S40000_S320000x1_S320000_n_0_0_1 : ScatterDims S40000 S320000x1 S320000 where
  updateWindowDims := []
  insertedWindowDims := [0]
  scatterDimsToOperandDims := [0]
  indexVectorDim := 1
  wf := scatter_S40000_S320000x1_S320000_n_0_0_1_wf
def gather_S40000_S320000x1_S320000_n_0_n_n_0_1_1 : GatherDims S40000 S320000x1 S320000 where
  offsetDims := []
  collapsedSliceDims := [0]
  operandBatchingDims := []
  startIndicesBatchingDims := []
  startIndexMap := [0]
  indexVectorDim := 1
  sliceSizes := ![1]
  wf := gather_S40000_S320000x1_S320000_n_0_n_n_0_1_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S40000x256_S320000x1_S320000x256_1_0_n_n_0_1_1256 : GatherDims S40000x256 S320000x1 S320000x256 where
  offsetDims := [1]
  collapsedSliceDims := [0]
  operandBatchingDims := []
  startIndicesBatchingDims := []
  startIndexMap := [0]
  indexVectorDim := 1
  sliceSizes := ![1, 256]
  wf := gather_S40000x256_S320000x1_S320000x256_1_0_n_n_0_1_1256_wf
def scatter_S40000x256_S320000x1_S320000x256_1_0_0_1 : ScatterDims S40000x256 S320000x1 S320000x256 where
  updateWindowDims := [1]
  insertedWindowDims := [0]
  scatterDimsToOperandDims := [0]
  indexVectorDim := 1
  wf := scatter_S40000x256_S320000x1_S320000x256_1_0_0_1_wf

class Facts : Prop extends Facts₀ where

variable [Facts]
-- ==== Proof.AtBits.Entry.lean ====
/-
  The Chebyshev graph convolution's program up to its one kernel launch.

  The program first computes, by host operations, the Chebyshev stack T_0 = x, T_1 = L x, T_k = 2 L T_{k-1} - T_{k-2}
  (L the scaled Laplacian as scatter-adds of gathered rows), stacks the five orders, and then launches one
  kernel over the grid (row block i, order k): the kernel adds T_k's row block times weight k into a scratch
  accumulator that it zeroes at k = 0 and, at k = 4, stores accumulator + bias into the output block.

  Here: the memory contents the launch finds (`entryVal`: the fold of every host operation before it), that the
  host operations write no argument, each window's block of its array at a grid point, the two conditions of
  the kernel body as facts about the grid position (k = 0 exactly at positions ≡ 0 mod 5, k = 4 exactly at
  positions ≡ 4 mod 5), where the output window is idle, and how a run to the pipeline library's frame
  postcondition gives "the five arguments end unchanged".
-/
import proofs.«131824_j13288628814252_1_alg».proof.Proof.Gen.Kernel.Launch
import proofs.«131824_j13288628814252_1_alg».proof.Proof.Gen.Kernel.Skeleton
import proofs.«131824_j13288628814252_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cheb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the kernel is launched: the fold of the five stretches of host operations over the
    starting memory. -/
abbrev entryVal (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- The program is its host operations and then the launch, so the launch starts from `entryVal`. -/
theorem main_to_launch (𝒱₀ : Variants) : Pipeline.HMain (Ix := Unit) (Name := ℕ) (U := UR sig nD τ) (Lvl := ℕ) cfgs 0 defs₀ 𝒱₀ m (main (F := F)) (entryVal m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation before the launch writes argument 0: the launch finds it as the program was started. -/
theorem entry_arg0 (c : Dev nD) : entryVal m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 1: the launch finds it as the program was started. -/
theorem entry_arg1 (c : Dev nD) : entryVal m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 2: the launch finds it as the program was started. -/
theorem entry_arg2 (c : Dev nD) : entryVal m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 3: the launch finds it as the program was started. -/
theorem entry_arg3 (c : Dev nD) : entryVal m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 4: the launch finds it as the program was started. -/
theorem entry_arg4 (c : Dev nD) : entryVal m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- Input 0's current staging buffer holds its block of the array at every grid point, whether the pipeline
    fetched it there or kept it from the point before (the block index did not move). -/
theorem inBlock0_of {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input 1's current staging buffer holds its block of the array at every grid point, whether the pipeline
    fetched it there or kept it from the point before (the block index did not move). -/
theorem inBlock1_of {c : Dev nD} (dat : Dat τ (Elt F) Unit ℕ (UR sig nD τ) ℕ cfg0 c) (hA : dat.A 1 = entryVal m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input 2's current staging buffer holds its block of the array at every grid point, whether the pipeline
    fetched it there or kept it from the point before (the block index did not move). -/
theorem inBlock2_of {c : Dev nD} (dat : Dat τ (Elt F) Unit ℕ (UR sig nD τ) ℕ cfg0 c) (hA : dat.A 2 = entryVal m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From a run that ends in the pipeline library's frame postcondition, for proof data whose arrays are the
    launch-time contents: arguments 0 to 3 are no window's array and bypass the launch; argument 4 (the bias) is
    the array of input window 2, which the pipeline only reads. -/
theorem frame_of_run (dats : (p : Fin 1) → (c : Dev nD) → Dat τ (Elt F) Unit ℕ (UR sig nD τ) ℕ (cfgs p) c)
    (hA : ∀ c w, (dats 0 c).A w = entryVal m c (Pipeline.arrRef spec0 w))
    (h : θ_run defs (onTc (τ := τ) (main (F := F))) (s₀ m ρ) (Pipeline.FramePost cfgs dats 0 (entryVal m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).1 2).trans (((dats 0 c).arrAt_in 2 rfl _).trans ((hA c 2).trans (entry_arg4 m c)))⟩) h

/-! ## The body's two conditions over the grid -/

/-- "This is order 0" (the accumulator is zeroed), as the body computes it from the grid coordinates. -/
abbrev isFirst (i : grid0.Coords) : Prop := (Scalar.cmpi .ne (Scalar.extui (Scalar.cmpi .eq (BitVec.ofNat 32 (i 1).val) 0#32)) 0#32) = 1#1
/-- It holds exactly at the grid positions ≡ 0 (mod 5). -/
theorem isFirst_iff : ∀ t : Fin cfg0.N, isFirst (grid0.coords t) ↔ t.val % 5 = 0 :=
  (by decide +kernel : ∀ t : Fin grid0.N, isFirst (grid0.coords t) ↔ t.val % 5 = 0)

/-- "This is order 4" (the output block is stored), as the body computes it. -/
abbrev isLast (i : grid0.Coords) : Prop := k0_cond2 i = 1#1
/-- It holds exactly at the grid positions ≡ 4 (mod 5). -/
theorem isLast_iff : ∀ t : Fin cfg0.N, isLast (grid0.coords t) ↔ t.val % 5 = 4 :=
  (by decide +kernel : ∀ t : Fin grid0.N, isLast (grid0.coords t) ↔ t.val % 5 = 4)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Before order 4 the body stores nothing into the output window, and the pipeline does not write it back. -/
theorem idle3_of_not_last : ∀ t : Fin cfg0.N, ¬isLast (grid0.coords t) → cfg0.idle 3 (grid0.coords t) = true := by decide +kernel
theorem noFlush3_of_not_last : ∀ t : Fin cfg0.N, ¬isLast (grid0.coords t) → (cfg0.win 3).flush t = false := by decide +kernel
/-- At order 4 the output window is live. -/
theorem live3_of_last : ∀ t : Fin cfg0.N, isLast (grid0.coords t) → cfg0.idle 3 (grid0.coords t) = false := by decide +kernel

/-! ## The staging memrefs the body is called with -/

/-- One staging buffer of the output window, through which its contents are stated. -/
abbrev outView : View sig .tc .vmem S4000x256 .f32 := (Memref.whole cc0_stg3_0 : Memref sig .tc .vmem S4000x256 .f32).view
abbrev stg0 (t : Fin cfg0.N) : Memref sig .tc .vmem S1x4000x256 .bf16 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S1x256x256 .bf16 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S256 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S4000x256 .f32 := win0_3.stage (cfg0.slots t 3)
abbrev stg3_whole (t : Fin cfg0.N) : (stg3 t).IsWhole := hstage0_3 ((cfg0.slots t 3).cast nbuf0_3)
/-- The accumulator: a whole scoped buffer of the kernel's own. -/
abbrev accM : Memref sig .tc .vmem S4000x256 .f32 := Memref.whole cc0_scratch0
abbrev accView : View sig .tc .vmem S4000x256 .f32 := accM.view

/-- What the launch hands the body besides the windows: the accumulator at some contents and the generator
    register at some state. -/
theorem scopedInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Cheb

end
-- ==== Proof.AtBits.BodyFirst.lean ====
/-
  The kernel body at order 0 (k = 0, not the last order): it zeroes the accumulator, adds T_0's row block times
  weight 0 into it, and leaves the output window alone. Run once on arbitrary whole staging memrefs; the
  accumulator's final contents are the list of whole-buffer pieces the run's stores leave (last first).
-/
import proofs.«131824_j13288628814252_1_alg».proof.Proof.AtBits.Entry

set_option maxRecDepth 16384

noncomputable section

namespace Cert.Kernel.Cheb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Order 0: from the inputs' buffers at their contents, the output buffer at contents `xo` (handed back
    untouched), the accumulator at anything — the body runs and ends with the accumulator's pieces written. -/
noncomputable def runFirst (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : isFirst i) (hc1 : ¬isLast i)
    (x0 : Vec F S1x4000x256 .bf16) (x1 : Vec F S1x256x256 .bf16) (x2 : Vec F S256 .f32) :
    Σ' (LO : List (View.Piece (Elt F) S4000x256 .f32)), { LA : List (View.Piece (Elt F) S4000x256 .f32) //
      ∀ (xo : Vec F S4000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA)) -∗ K ⟨⟩))
          ⊢ wp frame (wpE (defs₀ (F := F)) Variants.none c none) E (cc0__cheb_matmul_kernel i arg2 harg2 arg3 harg3 arg4 harg4 arg5 harg5 arg6 harg6) K } := by
  refine ⟨[], ?_, fun xo E K => ?run⟩
  case run =>
    simp only [cc0__cheb_matmul_kernel_eq_skeleton]; unfold cc0__cheb_matmul_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HA

end Cert.Kernel.Cheb

end
-- ==== Proof.AtBits.BodyMid.lean ====
/-
  The kernel body at orders 1 to 3 (neither the first nor the last): it adds T_k's row block times weight k
  into the accumulator, which holds what the order before left, and leaves the output window alone.
-/
import proofs.«131824_j13288628814252_1_alg».proof.Proof.AtBits.Entry

set_option maxRecDepth 16384

noncomputable section

namespace Cert.Kernel.Cheb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Orders 1–3: from the inputs' buffers at their contents, the output buffer at `xo` (handed back untouched),
    the accumulator at `xa` — the body runs and ends with the accumulator's pieces written. -/
noncomputable def runMid (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : ¬isLast i)
    (x0 : Vec F S1x4000x256 .bf16) (x1 : Vec F S1x256x256 .bf16) (x2 : Vec F S256 .f32) (xa : Vec F S4000x256 .f32) :
    Σ' (LO : List (View.Piece (Elt F) S4000x256 .f32)), { LA : List (View.Piece (Elt F) S4000x256 .f32) //
      ∀ (xo : Vec F S4000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA)) -∗ K ⟨⟩))
          ⊢ wp frame (wpE (defs₀ (F := F)) Variants.none c none) E (cc0__cheb_matmul_kernel i arg2 harg2 arg3 harg3 arg4 harg4 arg5 harg5 arg6 harg6) K } := by
  refine ⟨[], ?_, fun xo E K => ?run⟩
  case run =>
    simp only [cc0__cheb_matmul_kernel_eq_skeleton]; unfold cc0__cheb_matmul_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HA

end Cert.Kernel.Cheb

end
-- ==== Proof.AtBits.BodyLast.lean ====
/-
  The kernel body at order 4 (the last, not the first): it adds T_4's row block times weight 4 into the
  accumulator and stores accumulator + bias into the output window's buffer.
-/
import proofs.«131824_j13288628814252_1_alg».proof.Proof.AtBits.Entry

set_option maxRecDepth 16384

noncomputable section

namespace Cert.Kernel.Cheb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Order 4: from the inputs' buffers at their contents, the output buffer at anything, the accumulator at `xa`
    — the body runs and ends with the output's and the accumulator's pieces written. -/
noncomputable def runLast (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i)
    (x0 : Vec F S1x4000x256 .bf16) (x1 : Vec F S1x256x256 .bf16) (x2 : Vec F S256 .f32) (xa : Vec F S4000x256 .f32) :
    Σ' (LO : List (View.Piece (Elt F) S4000x256 .f32)), { LA : List (View.Piece (Elt F) S4000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xa
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LA)) -∗ K ⟨⟩))
          ⊢ wp frame (wpE (defs₀ (F := F)) Variants.none c none) E (cc0__cheb_matmul_kernel i arg2 harg2 arg3 harg3 arg4 harg4 arg5 harg5 arg6 harg6) K } := by
  refine ⟨?_, ?_, fun E K => ?run⟩
  case run =>
    simp only [cc0__cheb_matmul_kernel_eq_skeleton]; unfold cc0__cheb_matmul_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := harg2.eq_unread hf0; obtain rfl := harg3.eq_unread hf1; obtain rfl := harg4.eq_unread hf2; obtain rfl := harg6.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HA

end Cert.Kernel.Cheb

end
-- ==== Proof.AtBits.Frame.lean ====
/-
  The kernel launch's frame: what the accumulator and the output window hold after each grid point, and from
  it the pipeline library's frame run of the whole program.

  The grid runs row block i (outer) and Chebyshev order k (inner); position t = 5·i + k. The accumulator after
  position t (`accAt`): at k = 0 what the order-0 body leaves (zero, plus T_0's block times weight 0); at every
  other order what that order's body leaves over the accumulator the position before left. The output window's
  buffer after position t (`outAt`): at k = 4 what the order-4 body stores (accumulator + bias); at the other
  orders the window is idle and not written back, and the entry is a placeholder nothing reads. The region
  invariant carries the accumulator at `accAt` from one position to the next.
-/
import proofs.«131824_j13288628814252_1_alg».proof.Proof.AtBits.BodyFirst
import proofs.«131824_j13288628814252_1_alg».proof.Proof.AtBits.BodyMid
import proofs.«131824_j13288628814252_1_alg».proof.Proof.AtBits.BodyLast

set_option maxRecDepth 16384

noncomputable section

namespace Cert.Kernel.Cheb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each order's body leaves -/

/-- What the order-0 body leaves in the accumulator: its pieces read back. -/
def accFirst (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : isFirst i) (hc1 : ¬isLast i) (x0 : Vec F S1x4000x256 .bf16) (x1 : Vec F S1x256x256 .bf16) (x2 : Vec F S256 .f32) : Vec F S4000x256 .f32 :=
  accView.read (Elt F) (accView.writes (Elt F) accView.junk (runFirst c i arg2 harg2 arg3 harg3 arg4 harg4 arg5 harg5 arg6 harg6 hc0 hc1 x0 x1 x2).2.1)
/-- Those pieces cover the accumulator. -/
theorem accFirst_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : isFirst i) (hc1 : ¬isLast i) (x0 : Vec F S1x4000x256 .bf16) (x1 : Vec F S1x256x256 .bf16) (x2 : Vec F S256 .f32) (y : S4000x256.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S4000x256.size (by sl_kernel_rfl) y

/-- What an order-1-to-3 body leaves in the accumulator, over the accumulator `xa` it found. -/
def accMid (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : ¬isLast i) (x0 : Vec F S1x4000x256 .bf16) (x1 : Vec F S1x256x256 .bf16) (x2 : Vec F S256 .f32) (xa : Vec F S4000x256 .f32) : Vec F S4000x256 .f32 :=
  accView.read (Elt F) (accView.writes (Elt F) accView.junk (runMid c i arg2 harg2 arg3 harg3 arg4 harg4 arg5 harg5 arg6 harg6 hc0 hc1 x0 x1 x2 xa).2.1)
theorem accMid_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : ¬isLast i) (x0 : Vec F S1x4000x256 .bf16) (x1 : Vec F S1x256x256 .bf16) (x2 : Vec F S256 .f32) (xa : Vec F S4000x256 .f32) (y : S4000x256.Idx) :
    ∃ pc ∈ (runMid c i arg2 harg2 arg3 harg3 arg4 harg4 arg5 harg5 arg6 harg6 hc0 hc1 x0 x1 x2 xa).2.1, y ∈ pc.1.set :=
  View.cover_of_tiledL (runMid c i arg2 harg2 arg3 harg3 arg4 harg4 arg5 harg5 arg6 harg6 hc0 hc1 x0 x1 x2 xa).2.1 S4000x256.size (by sl_kernel_rfl) y

/-- What the order-4 body leaves in the accumulator, over the accumulator `xa` it found. -/
def accLast (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) : Vec F S4000x256 .f32 :=
  accView.read (Elt F) (accView.writes (Elt F) accView.junk (runLast c i arg2 harg2 arg3 harg3 arg4 harg4 arg5 harg5 arg6 harg6 hc0 hc1 x0 x1 x2 xa).2.1)
theorem accLast_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) (y : S4000x256.Idx) :
    ∃ pc ∈ (runLast c i arg2 harg2 arg3 harg3 arg4 harg4 arg5 harg5 arg6 harg6 hc0 hc1 x0 x1 x2 xa).2.1, y ∈ pc.1.set :=
  View.cover_of_tiledL (runLast c i arg2 harg2 arg3 harg3 arg4 harg4 arg5 harg5 arg6 harg6 hc0 hc1 x0 x1 x2 xa).2.1 S4000x256.size (by sl_kernel_rfl) y

/-- What the order-4 body leaves in the output window's buffer. -/
def outLast (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) : Vec F S4000x256 .f32 :=
  outView.read (Elt F) (outView.writes (Elt F) outView.junk (runLast c i arg2 harg2 arg3 harg3 arg4 harg4 arg5 harg5 arg6 harg6 hc0 hc1 x0 x1 x2 xa).1)
theorem outLast_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) (y : S4000x256.Idx) :
    ∃ pc ∈ (runLast c i arg2 harg2 arg3 harg3 arg4 harg4 arg5 harg5 arg6 harg6 hc0 hc1 x0 x1 x2 xa).1, y ∈ pc.1.set :=
  View.cover_of_tiledL (runLast c i arg2 harg2 arg3 harg3 arg4 harg4 arg5 harg5 arg6 harg6 hc0 hc1 x0 x1 x2 xa).1 S4000x256.size (by sl_kernel_rfl) y

/-- The placeholder for the output window at the orders that store nothing into it. -/
def outIdle : Vec F S4000x256 .f32 := outView.read (Elt F) (outView.writes (Elt F) outView.junk [])

/-! ## The accumulator and the output window, position by position -/

/-- THE ACCUMULATION: what the accumulator holds after the body at position `n`. -/
def accAt (c : Dev nD) : (n : ℕ) → n < cfg0.N → Vec F S4000x256 .f32
  | 0, hn => accFirst c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) accM (Memref.isWhole_whole _) ((isFirst_iff ⟨0, hn⟩).mpr (Nat.zero_mod _)) (fun h => (fun h => by (try dsimp only at h); omega) ((isLast_iff ⟨0, hn⟩).mp h)) (blockAt m c 0 ⟨0, hn⟩) (blockAt m c 1 ⟨0, hn⟩) (blockAt m c 2 ⟨0, hn⟩)
  | n + 1, hn =>
    if h0 : (n + 1) % 5 = 0 then
      accFirst c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) ((isFirst_iff ⟨n + 1, hn⟩).mpr h0) (fun h => (fun h => by (try dsimp only at h); omega) ((isLast_iff ⟨n + 1, hn⟩).mp h)) (blockAt m c 0 ⟨n + 1, hn⟩) (blockAt m c 1 ⟨n + 1, hn⟩) (blockAt m c 2 ⟨n + 1, hn⟩)
    else
      if h1 : (n + 1) % 5 = 4 then
        accLast c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => h0 ((isFirst_iff ⟨n + 1, hn⟩).mp h)) ((isLast_iff ⟨n + 1, hn⟩).mpr h1) (blockAt m c 0 ⟨n + 1, hn⟩) (blockAt m c 1 ⟨n + 1, hn⟩) (blockAt m c 2 ⟨n + 1, hn⟩) (accAt c n (Nat.lt_of_succ_lt hn))
      else
        accMid c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => h0 ((isFirst_iff ⟨n + 1, hn⟩).mp h)) (fun h => h1 ((isLast_iff ⟨n + 1, hn⟩).mp h)) (blockAt m c 0 ⟨n + 1, hn⟩) (blockAt m c 1 ⟨n + 1, hn⟩) (blockAt m c 2 ⟨n + 1, hn⟩) (accAt c n (Nat.lt_of_succ_lt hn))

/-- The accumulator the body finds at position `t` (what the position before left). -/
abbrev accBefore (c : Dev nD) (t : Fin cfg0.N) : Vec F S4000x256 .f32 :=
  accAt m c (t.val - 1) (Nat.lt_of_le_of_lt (Nat.sub_le _ _) t.isLt)

/-- At order 0. -/
theorem accAt_first (c : Dev nD) (t : Fin cfg0.N) (h0 : t.val % 5 = 0) (h1 : ¬t.val % 5 = 4) :
    accAt m c t.val t.isLt = accFirst c (grid0.coords t) (stg0 t) (stg0_whole t) (stg1 t) (stg1_whole t) (stg2 t) (stg2_whole t) (stg3 t) (stg3_whole t) accM (Memref.isWhole_whole _) ((isFirst_iff t).mpr h0) (fun h => h1 ((isLast_iff t).mp h)) (blockAt m c 0 t) (blockAt m c 1 t) (blockAt m c 2 t) := by
  obtain ⟨n, hn⟩ := t
  cases n with
  | zero => exact rfl
  | succ n => exact (dif_pos h0).trans rfl

/-- At orders 1 to 3. -/
theorem accAt_mid (c : Dev nD) (t : Fin cfg0.N) (h0 : ¬t.val % 5 = 0) (h1 : ¬t.val % 5 = 4) :
    accAt m c t.val t.isLt = accMid c (grid0.coords t) (stg0 t) (stg0_whole t) (stg1 t) (stg1_whole t) (stg2 t) (stg2_whole t) (stg3 t) (stg3_whole t) accM (Memref.isWhole_whole _) (fun h => h0 ((isFirst_iff t).mp h)) (fun h => h1 ((isLast_iff t).mp h)) (blockAt m c 0 t) (blockAt m c 1 t) (blockAt m c 2 t) (accBefore m c t) := by
  obtain ⟨n, hn⟩ := t
  cases n with
  | zero => exact (by exfalso; (try dsimp only at h0); exact absurd (Nat.zero_mod _) h0)
  | succ n => exact (dif_neg h0).trans ((dif_neg h1).trans rfl)

/-- At order 4. -/
theorem accAt_last (c : Dev nD) (t : Fin cfg0.N) (h0 : ¬t.val % 5 = 0) (h1 : t.val % 5 = 4) :
    accAt m c t.val t.isLt = accLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h1) (blockAt m c 0 t) (blockAt m c 1 t) (blockAt m c 2 t) (accBefore m c t) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after the body at position `t`: at order 4 the stored block, elsewhere
    the placeholder. -/
def outAt (c : Dev nD) (t : Fin cfg0.N) : Vec F S4000x256 .f32 :=
  if h1 : t.val % 5 = 4 then
    outLast c (grid0.coords t) (stg0 t) (stg0_whole t) (stg1 t) (stg1_whole t) (stg2 t) (stg2_whole t) (stg3 t) (stg3_whole t) accM (Memref.isWhole_whole _) (fun h => (fun h => by (try dsimp only at h); omega) ((isFirst_iff t).mp h)) ((isLast_iff t).mpr h1) (blockAt m c 0 t) (blockAt m c 1 t) (blockAt m c 2 t) (accBefore m c t)
  else outIdle

theorem outAt_last (c : Dev nD) (t : Fin cfg0.N) (h0 : ¬t.val % 5 = 0) (h1 : t.val % 5 = 4) :
    outAt m c t = outLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h1) (blockAt m c 0 t) (blockAt m c 1 t) (blockAt m c 2 t) (accBefore m c t) := by
  unfold outAt; exact (dif_pos h1).trans rfl

/-- The region invariant before position `n`: before the first position the accumulator holds anything; afterwards
    what the position before left in it; the generator register at some state throughout. -/
def accInv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare (accAt m c n hn)) ∗ (∃ r, prngReg c r)) := rfl

theorem accInv_pos (c : Dev nD) (n : ℕ) (h : n ≤ cfg0.N) (hz : n ≠ 0) :
    accInv m c n h = iprop(iprop(owns (c : Thread nD τ) accM fullShare (accAt m c (n - 1) (by omega))) ∗ (∃ r, prngReg c r)) := by
  cases n with
  | zero => exact absurd rfl hz
  | succ n => rfl

/-! ## The pipeline's proof data -/

/-- The arrays as the launch finds them; after the body at `t` each input's buffer at its block and the output's
    at `outAt`; the invariant `accInv`; nothing owed; full shares. -/
def dats (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => blockAt m c 1 t
    | ⟨2, _⟩ => blockAt m c 2 t
    | ⟨3, _⟩ => outAt m c t
  Φ t := accInv m c t.val (Nat.le_of_lt_succ t.isLt)
  q _ := fullShare
  owed _ := 0

theorem A_eq (c : Dev nD) (w : Fin cfg0.W) : (dats m 0 c).A w = entryVal m c (Pipeline.arrRef spec0 w) := by
  dsimp only [dats]

theorem accInv_castSucc (c : Dev nD) (t : Fin cfg0.N) :
    (dats m 0 c).Φ t.castSucc = accInv m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = blockAt m c 0 t :=
  inBlock0_of m (dats m 0 c) (A_eq m c 0) (after0 m c) t d
theorem before1 (c : Dev nD) (t : Fin cfg0.N) (d) : (dats m 0 c).before 1 t d = blockAt m c 1 t :=
  inBlock1_of m (dats m 0 c) (A_eq m c 1) (after1 m c) t d
theorem before2 (c : Dev nD) (t : Fin cfg0.N) (d) : (dats m 0 c).before 2 t d = blockAt m c 2 t :=
  inBlock2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any position: the inputs' buffers hold their blocks; the position's order decides which of the
    three runs applies; the invariant hands the body the accumulator (at anything at the very first position, at
    what the position before left afterwards) and takes it back at this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = accInv m c (t.val + 1) t.isLt from rfl, accInv_succ]
  have hN : t.val < 50 := lt_of_lt_of_eq t.isLt (show cfg0.N = 50 from N_0)
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  by_cases h0 : t.val % 5 = 0
  · have h1 : ¬t.val % 5 = 4 := by omega
    rw [Dat.leavesExact_idle (dats m 0 c) 3 t (idle3_of_not_last t (fun h => h1 ((isLast_iff t).mp h))) (noFlush3_of_not_last t (fun h => h1 ((isLast_iff t).mp h)))]
    rw [accAt_first m c t h0 h1]
    unfold accFirst; (try dsimp only)
    by_cases hz : t.val = 0
    · rw [accInv_castSucc m c t, accInv_zero m c _ _ hz, scopedInv_eq]
      iintro ⟨⟨HA, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blockAt m c 0 t) (blockAt m c 1 t) (blockAt m c 2 t)).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hg]
      · isplitl [HA]
        · unfold owns; iexists _; isplitr
          swap; · iexact HA
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [accInv_castSucc m c t, accInv_pos m c _ _ hz]
      iintro ⟨⟨HA, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blockAt m c 0 t) (blockAt m c 1 t) (blockAt m c 2 t)).2.2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%ea, HA⟩⟩
      isplitl [HA Hg]
      · isplitl [HA]
        · unfold owns; iexists _; isplitr
          swap; · iexact HA
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 5 = 4
    · rw [show (dats m 0 c).leavesExact 3 t = owns (c : Thread nD τ) (stg3 t) fullShare ((dats m 0 c).after 3 t) from by
        unfold Dat.leavesExact; rw [live3_of_last t ((isLast_iff t).mpr h1)], after3]
      rw [accAt_last m c t h0 h1, outAt_last m c t h0 h1]
      unfold outLast accLast; (try dsimp only)
      rw [accInv_castSucc m c t, accInv_pos m c _ _ hz]
      iintro ⟨⟨HA, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (blockAt m c 0 t) (blockAt m c 1 t) (blockAt m c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%ea, HA⟩⟩
      isplitl [HA Hg]
      · isplitl [HA]
        · unfold owns; iexists _; isplitr
          swap; · iexact HA
          ipureintro; exact View.read_writes_of_cover _ _ _ _ _ (accLast_cover c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · rw [Dat.leavesExact_idle (dats m 0 c) 3 t (idle3_of_not_last t (fun h => h1 ((isLast_iff t).mp h))) (noFlush3_of_not_last t (fun h => h1 ((isLast_iff t).mp h)))]
      rw [accAt_mid m c t h0 h1]
      unfold accMid; (try dsimp only)
      rw [accInv_castSucc m c t, accInv_pos m c _ _ hz]
      iintro ⟨⟨HA, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (blockAt m c 0 t) (blockAt m c 1 t) (blockAt m c 2 t) _).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hg]
      · isplitl [HA]
        · unfold owns; iexists _; isplitr
          swap; · iexact HA
          ipureintro; exact View.read_writes_of_cover _ _ _ _ _ (accMid_cover c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The pipeline library's body obligation, at every position. -/
theorem body_obligation (c : Dev nD) : BodyObligation (dats (F := F) m 0 c) (defs₀ (F := F)) Variants.none () Set.univ := fun t => by
  rw [bigSep_W0, bigSep_W0]
  exact sound_body m c t

/-- What the launch hands the region is the invariant before the first position. -/
theorem inv_in (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After any position but the first the invariant gives the launch's back: the accumulator's contents are forgotten. -/
theorem inv_forget (c : Dev nD) (t : Fin (cfg0.N + 1)) (ht : t.val ≠ 0) : (dats m 0 c).Φ t ⊢ Pipeline.ΦA spec0 c := by
  rw [show (dats m 0 c).Φ t = accInv m c t.val (Nat.le_of_lt_succ t.isLt) from rfl, accInv_pos m c _ _ ht, scopedInv_eq]
  iintro ⟨HA, Hg⟩
  isplitl [HA]
  · iexists _; iexact HA
  iexact Hg

theorem inv_out (c : Dev nD) : (dats m 0 c).Φ (Fin.last cfg0.N) ⊢ Pipeline.ΦA spec0 c :=
  inv_forget m c _ (by rw [Fin.val_last]; have : cfg0.N = 50 := N_0; omega)

/-! ## The run and the frame -/

set_option backward.isDefEq.respectTransparency.types false in
/-- Every weakly fair execution of the program terminates, and at the end every array of the pipeline holds what
    the library computes from the proof data and every other unscoped buffer what the launch found in it. -/
theorem run_main : θ_run defs (onTc (τ := τ) (main (F := F))) (s₀ m ρ) (Pipeline.FramePost cfgs (dats m) 0 (entryVal m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := entryVal m) (hmain := main_to_launch m Variants.none) (hA := A_eq m) (hin := inv_in m) (hout := inv_out m)

/-- The program runs to the end, faults nowhere, and leaves its five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_run m ρ (dats m) (A_eq m) (run_main m ρ)

end Cert.Kernel.Cheb

end
-- ==== Proof.AtIdeal.Entry.lean ====
/-
  The Chebyshev graph convolution's program up to its one kernel launch.

  The program first computes, by host operations, the Chebyshev stack T_0 = x, T_1 = L x, T_k = 2 L T_{k-1} - T_{k-2}
  (L the scaled Laplacian as scatter-adds of gathered rows), stacks the five orders, and then launches one
  kernel over the grid (row block i, order k): the kernel adds T_k's row block times weight k into a scratch
  accumulator that it zeroes at k = 0 and, at k = 4, stores accumulator + bias into the output block.

  Here: the memory contents the launch finds (`entryVal`: the fold of every host operation before it), that the
  host operations write no argument, each window's block of its array at a grid point, the two conditions of
  the kernel body as facts about the grid position (k = 0 exactly at positions ≡ 0 mod 5, k = 4 exactly at
  positions ≡ 4 mod 5), where the output window is idle, and how a run to the pipeline library's frame
  postcondition gives "the five arguments end unchanged".
-/
import proofs.«131824_j13288628814252_1_alg».proof.Proof.Gen.KernelIdeal.Launch
import proofs.«131824_j13288628814252_1_alg».proof.Proof.Gen.KernelIdeal.Skeleton
import proofs.«131824_j13288628814252_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the kernel is launched: the fold of the five stretches of host operations over the
    starting memory. -/
abbrev entryVal (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- The program is its host operations and then the launch, so the launch starts from `entryVal`. -/
theorem main_to_launch (𝒱₀ : Variants) : Pipeline.HMain (Ix := Unit) (Name := ℕ) (U := UR sig nD τ) (Lvl := ℕ) cfgs 0 defs₀ 𝒱₀ m (main (F := F)) (entryVal m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation before the launch writes argument 0: the launch finds it as the program was started. -/
theorem entry_arg0 (c : Dev nD) : entryVal m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 1: the launch finds it as the program was started. -/
theorem entry_arg1 (c : Dev nD) : entryVal m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 2: the launch finds it as the program was started. -/
theorem entry_arg2 (c : Dev nD) : entryVal m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 3: the launch finds it as the program was started. -/
theorem entry_arg3 (c : Dev nD) : entryVal m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the launch writes argument 4: the launch finds it as the program was started. -/
theorem entry_arg4 (c : Dev nD) : entryVal m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- Input 0's current staging buffer holds its block of the array at every grid point, whether the pipeline
    fetched it there or kept it from the point before (the block index did not move). -/
theorem inBlock0_of {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input 1's current staging buffer holds its block of the array at every grid point, whether the pipeline
    fetched it there or kept it from the point before (the block index did not move). -/
theorem inBlock1_of {c : Dev nD} (dat : Dat τ (Elt F) Unit ℕ (UR sig nD τ) ℕ cfg0 c) (hA : dat.A 1 = entryVal m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input 2's current staging buffer holds its block of the array at every grid point, whether the pipeline
    fetched it there or kept it from the point before (the block index did not move). -/
theorem inBlock2_of {c : Dev nD} (dat : Dat τ (Elt F) Unit ℕ (UR sig nD τ) ℕ cfg0 c) (hA : dat.A 2 = entryVal m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From a run that ends in the pipeline library's frame postcondition, for proof data whose arrays are the
    launch-time contents: arguments 0 to 3 are no window's array and bypass the launch; argument 4 (the bias) is
    the array of input window 2, which the pipeline only reads. -/
theorem frame_of_run (dats : (p : Fin 1) → (c : Dev nD) → Dat τ (Elt F) Unit ℕ (UR sig nD τ) ℕ (cfgs p) c)
    (hA : ∀ c w, (dats 0 c).A w = entryVal m c (Pipeline.arrRef spec0 w))
    (h : θ_run defs (onTc (τ := τ) (main (F := F))) (s₀ m ρ) (Pipeline.FramePost cfgs dats 0 (entryVal m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).1 2).trans (((dats 0 c).arrAt_in 2 rfl _).trans ((hA c 2).trans (entry_arg4 m c)))⟩) h

/-! ## The body's two conditions over the grid -/

/-- "This is order 0" (the accumulator is zeroed), as the body computes it from the grid coordinates. -/
abbrev isFirst (i : grid0.Coords) : Prop := (Scalar.cmpi .ne (Scalar.extui (Scalar.cmpi .eq (BitVec.ofNat 32 (i 1).val) 0#32)) 0#32) = 1#1
/-- It holds exactly at the grid positions ≡ 0 (mod 5). -/
theorem isFirst_iff : ∀ t : Fin cfg0.N, isFirst (grid0.coords t) ↔ t.val % 5 = 0 :=
  (by decide +kernel : ∀ t : Fin grid0.N, isFirst (grid0.coords t) ↔ t.val % 5 = 0)

/-- "This is order 4" (the output block is stored), as the body computes it. -/
abbrev isLast (i : grid0.Coords) : Prop := k0_cond2 i = 1#1
/-- It holds exactly at the grid positions ≡ 4 (mod 5). -/
theorem isLast_iff : ∀ t : Fin cfg0.N, isLast (grid0.coords t) ↔ t.val % 5 = 4 :=
  (by decide +kernel : ∀ t : Fin grid0.N, isLast (grid0.coords t) ↔ t.val % 5 = 4)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Before order 4 the body stores nothing into the output window, and the pipeline does not write it back. -/
theorem idle3_of_not_last : ∀ t : Fin cfg0.N, ¬isLast (grid0.coords t) → cfg0.idle 3 (grid0.coords t) = true := by decide +kernel
theorem noFlush3_of_not_last : ∀ t : Fin cfg0.N, ¬isLast (grid0.coords t) → (cfg0.win 3).flush t = false := by decide +kernel
/-- At order 4 the output window is live. -/
theorem live3_of_last : ∀ t : Fin cfg0.N, isLast (grid0.coords t) → cfg0.idle 3 (grid0.coords t) = false := by decide +kernel

/-! ## The staging memrefs the body is called with -/

/-- One staging buffer of the output window, through which its contents are stated. -/
abbrev outView : View sig .tc .vmem S4000x256 .f32 := (Memref.whole cc0_stg3_0 : Memref sig .tc .vmem S4000x256 .f32).view
abbrev stg0 (t : Fin cfg0.N) : Memref sig .tc .vmem S1x4000x256 .bf16 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S1x256x256 .bf16 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S256 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S4000x256 .f32 := win0_3.stage (cfg0.slots t 3)
abbrev stg3_whole (t : Fin cfg0.N) : (stg3 t).IsWhole := hstage0_3 ((cfg0.slots t 3).cast nbuf0_3)
/-- The accumulator: a whole scoped buffer of the kernel's own. -/
abbrev accM : Memref sig .tc .vmem S4000x256 .f32 := Memref.whole cc0_scratch0
abbrev accView : View sig .tc .vmem S4000x256 .f32 := accM.view

/-- What the launch hands the body besides the windows: the accumulator at some contents and the generator
    register at some state. -/
theorem scopedInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Cheb

end
-- ==== Proof.AtIdeal.BodyFirst.lean ====
/-
  The kernel body at order 0 (k = 0, not the last order): it zeroes the accumulator, adds T_0's row block times
  weight 0 into it, and leaves the output window alone. Run once on arbitrary whole staging memrefs; the
  accumulator's final contents are the list of whole-buffer pieces the run's stores leave (last first).
-/
import proofs.«131824_j13288628814252_1_alg».proof.Proof.AtIdeal.Entry

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Order 0: from the inputs' buffers at their contents, the output buffer at contents `xo` (handed back
    untouched), the accumulator at anything — the body runs and ends with the accumulator's pieces written. -/
noncomputable def runFirst (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : isFirst i) (hc1 : ¬isLast i)
    (x0 : Vec F S1x4000x256 .bf16) (x1 : Vec F S1x256x256 .bf16) (x2 : Vec F S256 .f32) :
    Σ' (LO : List (View.Piece (Elt F) S4000x256 .f32)), { LA : List (View.Piece (Elt F) S4000x256 .f32) //
      ∀ (xo : Vec F S4000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA)) -∗ K ⟨⟩))
          ⊢ wp frame (wpE (defs₀ (F := F)) Variants.none c none) E (cc0__cheb_matmul_kernel i arg2 harg2 arg3 harg3 arg4 harg4 arg5 harg5 arg6 harg6) K } := by
  refine ⟨[], ?_, fun xo E K => ?run⟩
  case run =>
    simp only [cc0__cheb_matmul_kernel_eq_skeleton]; unfold cc0__cheb_matmul_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HA

end Cert.KernelIdeal.Cheb

end
-- ==== Proof.AtIdeal.BodyMid.lean ====
/-
  The kernel body at orders 1 to 3 (neither the first nor the last): it adds T_k's row block times weight k
  into the accumulator, which holds what the order before left, and leaves the output window alone.
-/
import proofs.«131824_j13288628814252_1_alg».proof.Proof.AtIdeal.Entry

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Orders 1–3: from the inputs' buffers at their contents, the output buffer at `xo` (handed back untouched),
    the accumulator at `xa` — the body runs and ends with the accumulator's pieces written. -/
noncomputable def runMid (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : ¬isLast i)
    (x0 : Vec F S1x4000x256 .bf16) (x1 : Vec F S1x256x256 .bf16) (x2 : Vec F S256 .f32) (xa : Vec F S4000x256 .f32) :
    Σ' (LO : List (View.Piece (Elt F) S4000x256 .f32)), { LA : List (View.Piece (Elt F) S4000x256 .f32) //
      ∀ (xo : Vec F S4000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LA)) -∗ K ⟨⟩))
          ⊢ wp frame (wpE (defs₀ (F := F)) Variants.none c none) E (cc0__cheb_matmul_kernel i arg2 harg2 arg3 harg3 arg4 harg4 arg5 harg5 arg6 harg6) K } := by
  refine ⟨[], ?_, fun xo E K => ?run⟩
  case run =>
    simp only [cc0__cheb_matmul_kernel_eq_skeleton]; unfold cc0__cheb_matmul_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HA

end Cert.KernelIdeal.Cheb

end
-- ==== Proof.AtIdeal.BodyLast.lean ====
/-
  The kernel body at order 4 (the last, not the first): it adds T_4's row block times weight 4 into the
  accumulator and stores accumulator + bias into the output window's buffer.
-/
import proofs.«131824_j13288628814252_1_alg».proof.Proof.AtIdeal.Entry

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Order 4: from the inputs' buffers at their contents, the output buffer at anything, the accumulator at `xa`
    — the body runs and ends with the output's and the accumulator's pieces written. -/
noncomputable def runLast (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i)
    (x0 : Vec F S1x4000x256 .bf16) (x1 : Vec F S1x256x256 .bf16) (x2 : Vec F S256 .f32) (xa : Vec F S4000x256 .f32) :
    Σ' (LO : List (View.Piece (Elt F) S4000x256 .f32)), { LA : List (View.Piece (Elt F) S4000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xa
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LA)) -∗ K ⟨⟩))
          ⊢ wp frame (wpE (defs₀ (F := F)) Variants.none c none) E (cc0__cheb_matmul_kernel i arg2 harg2 arg3 harg3 arg4 harg4 arg5 harg5 arg6 harg6) K } := by
  refine ⟨?_, ?_, fun E K => ?run⟩
  case run =>
    simp only [cc0__cheb_matmul_kernel_eq_skeleton]; unfold cc0__cheb_matmul_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := harg2.eq_unread hf0; obtain rfl := harg3.eq_unread hf1; obtain rfl := harg4.eq_unread hf2; obtain rfl := harg6.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HA

end Cert.KernelIdeal.Cheb

end
-- ==== Proof.AtIdeal.Frame.lean ====
/-
  The kernel launch's frame: what the accumulator and the output window hold after each grid point, and from
  it the pipeline library's frame run of the whole program.

  The grid runs row block i (outer) and Chebyshev order k (inner); position t = 5·i + k. The accumulator after
  position t (`accAt`): at k = 0 what the order-0 body leaves (zero, plus T_0's block times weight 0); at every
  other order what that order's body leaves over the accumulator the position before left. The output window's
  buffer after position t (`outAt`): at k = 4 what the order-4 body stores (accumulator + bias); at the other
  orders the window is idle and not written back, and the entry is a placeholder nothing reads. The region
  invariant carries the accumulator at `accAt` from one position to the next.
-/
import proofs.«131824_j13288628814252_1_alg».proof.Proof.AtIdeal.BodyFirst
import proofs.«131824_j13288628814252_1_alg».proof.Proof.AtIdeal.BodyMid
import proofs.«131824_j13288628814252_1_alg».proof.Proof.AtIdeal.BodyLast

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each order's body leaves -/

/-- What the order-0 body leaves in the accumulator: its pieces read back. -/
def accFirst (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : isFirst i) (hc1 : ¬isLast i) (x0 : Vec F S1x4000x256 .bf16) (x1 : Vec F S1x256x256 .bf16) (x2 : Vec F S256 .f32) : Vec F S4000x256 .f32 :=
  accView.read (Elt F) (accView.writes (Elt F) accView.junk (runFirst c i arg2 harg2 arg3 harg3 arg4 harg4 arg5 harg5 arg6 harg6 hc0 hc1 x0 x1 x2).2.1)
/-- Those pieces cover the accumulator. -/
theorem accFirst_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : isFirst i) (hc1 : ¬isLast i) (x0 : Vec F S1x4000x256 .bf16) (x1 : Vec F S1x256x256 .bf16) (x2 : Vec F S256 .f32) (y : S4000x256.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S4000x256.size (by sl_kernel_rfl) y

/-- What an order-1-to-3 body leaves in the accumulator, over the accumulator `xa` it found. -/
def accMid (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : ¬isLast i) (x0 : Vec F S1x4000x256 .bf16) (x1 : Vec F S1x256x256 .bf16) (x2 : Vec F S256 .f32) (xa : Vec F S4000x256 .f32) : Vec F S4000x256 .f32 :=
  accView.read (Elt F) (accView.writes (Elt F) accView.junk (runMid c i arg2 harg2 arg3 harg3 arg4 harg4 arg5 harg5 arg6 harg6 hc0 hc1 x0 x1 x2 xa).2.1)
theorem accMid_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : ¬isLast i) (x0 : Vec F S1x4000x256 .bf16) (x1 : Vec F S1x256x256 .bf16) (x2 : Vec F S256 .f32) (xa : Vec F S4000x256 .f32) (y : S4000x256.Idx) :
    ∃ pc ∈ (runMid c i arg2 harg2 arg3 harg3 arg4 harg4 arg5 harg5 arg6 harg6 hc0 hc1 x0 x1 x2 xa).2.1, y ∈ pc.1.set :=
  View.cover_of_tiledL (runMid c i arg2 harg2 arg3 harg3 arg4 harg4 arg5 harg5 arg6 harg6 hc0 hc1 x0 x1 x2 xa).2.1 S4000x256.size (by sl_kernel_rfl) y

/-- What the order-4 body leaves in the accumulator, over the accumulator `xa` it found. -/
def accLast (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) : Vec F S4000x256 .f32 :=
  accView.read (Elt F) (accView.writes (Elt F) accView.junk (runLast c i arg2 harg2 arg3 harg3 arg4 harg4 arg5 harg5 arg6 harg6 hc0 hc1 x0 x1 x2 xa).2.1)
theorem accLast_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) (y : S4000x256.Idx) :
    ∃ pc ∈ (runLast c i arg2 harg2 arg3 harg3 arg4 harg4 arg5 harg5 arg6 harg6 hc0 hc1 x0 x1 x2 xa).2.1, y ∈ pc.1.set :=
  View.cover_of_tiledL (runLast c i arg2 harg2 arg3 harg3 arg4 harg4 arg5 harg5 arg6 harg6 hc0 hc1 x0 x1 x2 xa).2.1 S4000x256.size (by sl_kernel_rfl) y

/-- What the order-4 body leaves in the output window's buffer. -/
def outLast (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) : Vec F S4000x256 .f32 :=
  outView.read (Elt F) (outView.writes (Elt F) outView.junk (runLast c i arg2 harg2 arg3 harg3 arg4 harg4 arg5 harg5 arg6 harg6 hc0 hc1 x0 x1 x2 xa).1)
theorem outLast_cover (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) (y : S4000x256.Idx) :
    ∃ pc ∈ (runLast c i arg2 harg2 arg3 harg3 arg4 harg4 arg5 harg5 arg6 harg6 hc0 hc1 x0 x1 x2 xa).1, y ∈ pc.1.set :=
  View.cover_of_tiledL (runLast c i arg2 harg2 arg3 harg3 arg4 harg4 arg5 harg5 arg6 harg6 hc0 hc1 x0 x1 x2 xa).1 S4000x256.size (by sl_kernel_rfl) y

/-- The placeholder for the output window at the orders that store nothing into it. -/
def outIdle : Vec F S4000x256 .f32 := outView.read (Elt F) (outView.writes (Elt F) outView.junk [])

/-! ## The accumulator and the output window, position by position -/

/-- THE ACCUMULATION: what the accumulator holds after the body at position `n`. -/
def accAt (c : Dev nD) : (n : ℕ) → n < cfg0.N → Vec F S4000x256 .f32
  | 0, hn => accFirst c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) accM (Memref.isWhole_whole _) ((isFirst_iff ⟨0, hn⟩).mpr (Nat.zero_mod _)) (fun h => (fun h => by (try dsimp only at h); omega) ((isLast_iff ⟨0, hn⟩).mp h)) (blockAt m c 0 ⟨0, hn⟩) (blockAt m c 1 ⟨0, hn⟩) (blockAt m c 2 ⟨0, hn⟩)
  | n + 1, hn =>
    if h0 : (n + 1) % 5 = 0 then
      accFirst c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) ((isFirst_iff ⟨n + 1, hn⟩).mpr h0) (fun h => (fun h => by (try dsimp only at h); omega) ((isLast_iff ⟨n + 1, hn⟩).mp h)) (blockAt m c 0 ⟨n + 1, hn⟩) (blockAt m c 1 ⟨n + 1, hn⟩) (blockAt m c 2 ⟨n + 1, hn⟩)
    else
      if h1 : (n + 1) % 5 = 4 then
        accLast c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => h0 ((isFirst_iff ⟨n + 1, hn⟩).mp h)) ((isLast_iff ⟨n + 1, hn⟩).mpr h1) (blockAt m c 0 ⟨n + 1, hn⟩) (blockAt m c 1 ⟨n + 1, hn⟩) (blockAt m c 2 ⟨n + 1, hn⟩) (accAt c n (Nat.lt_of_succ_lt hn))
      else
        accMid c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => h0 ((isFirst_iff ⟨n + 1, hn⟩).mp h)) (fun h => h1 ((isLast_iff ⟨n + 1, hn⟩).mp h)) (blockAt m c 0 ⟨n + 1, hn⟩) (blockAt m c 1 ⟨n + 1, hn⟩) (blockAt m c 2 ⟨n + 1, hn⟩) (accAt c n (Nat.lt_of_succ_lt hn))

/-- The accumulator the body finds at position `t` (what the position before left). -/
abbrev accBefore (c : Dev nD) (t : Fin cfg0.N) : Vec F S4000x256 .f32 :=
  accAt m c (t.val - 1) (Nat.lt_of_le_of_lt (Nat.sub_le _ _) t.isLt)

/-- At order 0. -/
theorem accAt_first (c : Dev nD) (t : Fin cfg0.N) (h0 : t.val % 5 = 0) (h1 : ¬t.val % 5 = 4) :
    accAt m c t.val t.isLt = accFirst c (grid0.coords t) (stg0 t) (stg0_whole t) (stg1 t) (stg1_whole t) (stg2 t) (stg2_whole t) (stg3 t) (stg3_whole t) accM (Memref.isWhole_whole _) ((isFirst_iff t).mpr h0) (fun h => h1 ((isLast_iff t).mp h)) (blockAt m c 0 t) (blockAt m c 1 t) (blockAt m c 2 t) := by
  obtain ⟨n, hn⟩ := t
  cases n with
  | zero => exact rfl
  | succ n => exact (dif_pos h0).trans rfl

/-- At orders 1 to 3. -/
theorem accAt_mid (c : Dev nD) (t : Fin cfg0.N) (h0 : ¬t.val % 5 = 0) (h1 : ¬t.val % 5 = 4) :
    accAt m c t.val t.isLt = accMid c (grid0.coords t) (stg0 t) (stg0_whole t) (stg1 t) (stg1_whole t) (stg2 t) (stg2_whole t) (stg3 t) (stg3_whole t) accM (Memref.isWhole_whole _) (fun h => h0 ((isFirst_iff t).mp h)) (fun h => h1 ((isLast_iff t).mp h)) (blockAt m c 0 t) (blockAt m c 1 t) (blockAt m c 2 t) (accBefore m c t) := by
  obtain ⟨n, hn⟩ := t
  cases n with
  | zero => exact (by exfalso; (try dsimp only at h0); exact absurd (Nat.zero_mod _) h0)
  | succ n => exact (dif_neg h0).trans ((dif_neg h1).trans rfl)

/-- At order 4. -/
theorem accAt_last (c : Dev nD) (t : Fin cfg0.N) (h0 : ¬t.val % 5 = 0) (h1 : t.val % 5 = 4) :
    accAt m c t.val t.isLt = accLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h1) (blockAt m c 0 t) (blockAt m c 1 t) (blockAt m c 2 t) (accBefore m c t) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after the body at position `t`: at order 4 the stored block, elsewhere
    the placeholder. -/
def outAt (c : Dev nD) (t : Fin cfg0.N) : Vec F S4000x256 .f32 :=
  if h1 : t.val % 5 = 4 then
    outLast c (grid0.coords t) (stg0 t) (stg0_whole t) (stg1 t) (stg1_whole t) (stg2 t) (stg2_whole t) (stg3 t) (stg3_whole t) accM (Memref.isWhole_whole _) (fun h => (fun h => by (try dsimp only at h); omega) ((isFirst_iff t).mp h)) ((isLast_iff t).mpr h1) (blockAt m c 0 t) (blockAt m c 1 t) (blockAt m c 2 t) (accBefore m c t)
  else outIdle

theorem outAt_last (c : Dev nD) (t : Fin cfg0.N) (h0 : ¬t.val % 5 = 0) (h1 : t.val % 5 = 4) :
    outAt m c t = outLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h1) (blockAt m c 0 t) (blockAt m c 1 t) (blockAt m c 2 t) (accBefore m c t) := by
  unfold outAt; exact (dif_pos h1).trans rfl

/-- The region invariant before position `n`: before the first position the accumulator holds anything; afterwards
    what the position before left in it; the generator register at some state throughout. -/
def accInv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare (accAt m c n hn)) ∗ (∃ r, prngReg c r)) := rfl

theorem accInv_pos (c : Dev nD) (n : ℕ) (h : n ≤ cfg0.N) (hz : n ≠ 0) :
    accInv m c n h = iprop(iprop(owns (c : Thread nD τ) accM fullShare (accAt m c (n - 1) (by omega))) ∗ (∃ r, prngReg c r)) := by
  cases n with
  | zero => exact absurd rfl hz
  | succ n => rfl

/-! ## The pipeline's proof data -/

/-- The arrays as the launch finds them; after the body at `t` each input's buffer at its block and the output's
    at `outAt`; the invariant `accInv`; nothing owed; full shares. -/
def dats (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => blockAt m c 1 t
    | ⟨2, _⟩ => blockAt m c 2 t
    | ⟨3, _⟩ => outAt m c t
  Φ t := accInv m c t.val (Nat.le_of_lt_succ t.isLt)
  q _ := fullShare
  owed _ := 0

theorem A_eq (c : Dev nD) (w : Fin cfg0.W) : (dats m 0 c).A w = entryVal m c (Pipeline.arrRef spec0 w) := by
  dsimp only [dats]

theorem accInv_castSucc (c : Dev nD) (t : Fin cfg0.N) :
    (dats m 0 c).Φ t.castSucc = accInv m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = blockAt m c 0 t :=
  inBlock0_of m (dats m 0 c) (A_eq m c 0) (after0 m c) t d
theorem before1 (c : Dev nD) (t : Fin cfg0.N) (d) : (dats m 0 c).before 1 t d = blockAt m c 1 t :=
  inBlock1_of m (dats m 0 c) (A_eq m c 1) (after1 m c) t d
theorem before2 (c : Dev nD) (t : Fin cfg0.N) (d) : (dats m 0 c).before 2 t d = blockAt m c 2 t :=
  inBlock2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any position: the inputs' buffers hold their blocks; the position's order decides which of the
    three runs applies; the invariant hands the body the accumulator (at anything at the very first position, at
    what the position before left afterwards) and takes it back at this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = accInv m c (t.val + 1) t.isLt from rfl, accInv_succ]
  have hN : t.val < 50 := lt_of_lt_of_eq t.isLt (show cfg0.N = 50 from N_0)
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  by_cases h0 : t.val % 5 = 0
  · have h1 : ¬t.val % 5 = 4 := by omega
    rw [Dat.leavesExact_idle (dats m 0 c) 3 t (idle3_of_not_last t (fun h => h1 ((isLast_iff t).mp h))) (noFlush3_of_not_last t (fun h => h1 ((isLast_iff t).mp h)))]
    rw [accAt_first m c t h0 h1]
    unfold accFirst; (try dsimp only)
    by_cases hz : t.val = 0
    · rw [accInv_castSucc m c t, accInv_zero m c _ _ hz, scopedInv_eq]
      iintro ⟨⟨HA, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blockAt m c 0 t) (blockAt m c 1 t) (blockAt m c 2 t)).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hg]
      · isplitl [HA]
        · unfold owns; iexists _; isplitr
          swap; · iexact HA
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [accInv_castSucc m c t, accInv_pos m c _ _ hz]
      iintro ⟨⟨HA, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blockAt m c 0 t) (blockAt m c 1 t) (blockAt m c 2 t)).2.2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%ea, HA⟩⟩
      isplitl [HA Hg]
      · isplitl [HA]
        · unfold owns; iexists _; isplitr
          swap; · iexact HA
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 5 = 4
    · rw [show (dats m 0 c).leavesExact 3 t = owns (c : Thread nD τ) (stg3 t) fullShare ((dats m 0 c).after 3 t) from by
        unfold Dat.leavesExact; rw [live3_of_last t ((isLast_iff t).mpr h1)], after3]
      rw [accAt_last m c t h0 h1, outAt_last m c t h0 h1]
      unfold outLast accLast; (try dsimp only)
      rw [accInv_castSucc m c t, accInv_pos m c _ _ hz]
      iintro ⟨⟨HA, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (blockAt m c 0 t) (blockAt m c 1 t) (blockAt m c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%ea, HA⟩⟩
      isplitl [HA Hg]
      · isplitl [HA]
        · unfold owns; iexists _; isplitr
          swap; · iexact HA
          ipureintro; exact View.read_writes_of_cover _ _ _ _ _ (accLast_cover c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · rw [Dat.leavesExact_idle (dats m 0 c) 3 t (idle3_of_not_last t (fun h => h1 ((isLast_iff t).mp h))) (noFlush3_of_not_last t (fun h => h1 ((isLast_iff t).mp h)))]
      rw [accAt_mid m c t h0 h1]
      unfold accMid; (try dsimp only)
      rw [accInv_castSucc m c t, accInv_pos m c _ _ hz]
      iintro ⟨⟨HA, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (blockAt m c 0 t) (blockAt m c 1 t) (blockAt m c 2 t) _).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hg]
      · isplitl [HA]
        · unfold owns; iexists _; isplitr
          swap; · iexact HA
          ipureintro; exact View.read_writes_of_cover _ _ _ _ _ (accMid_cover c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The pipeline library's body obligation, at every position. -/
theorem body_obligation (c : Dev nD) : BodyObligation (dats (F := F) m 0 c) (defs₀ (F := F)) Variants.none () Set.univ := fun t => by
  rw [bigSep_W0, bigSep_W0]
  exact sound_body m c t

/-- What the launch hands the region is the invariant before the first position. -/
theorem inv_in (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After any position but the first the invariant gives the launch's back: the accumulator's contents are forgotten. -/
theorem inv_forget (c : Dev nD) (t : Fin (cfg0.N + 1)) (ht : t.val ≠ 0) : (dats m 0 c).Φ t ⊢ Pipeline.ΦA spec0 c := by
  rw [show (dats m 0 c).Φ t = accInv m c t.val (Nat.le_of_lt_succ t.isLt) from rfl, accInv_pos m c _ _ ht, scopedInv_eq]
  iintro ⟨HA, Hg⟩
  isplitl [HA]
  · iexists _; iexact HA
  iexact Hg

theorem inv_out (c : Dev nD) : (dats m 0 c).Φ (Fin.last cfg0.N) ⊢ Pipeline.ΦA spec0 c :=
  inv_forget m c _ (by rw [Fin.val_last]; have : cfg0.N = 50 := N_0; omega)

/-! ## The run and the frame -/

set_option backward.isDefEq.respectTransparency.types false in
/-- Every weakly fair execution of the program terminates, and at the end every array of the pipeline holds what
    the library computes from the proof data and every other unscoped buffer what the launch found in it. -/
theorem run_main : θ_run defs (onTc (τ := τ) (main (F := F))) (s₀ m ρ) (Pipeline.FramePost cfgs (dats m) 0 (entryVal m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := entryVal m) (hmain := main_to_launch m Variants.none) (hA := A_eq m) (hin := inv_in m) (hout := inv_out m)

/-- The program runs to the end, faults nowhere, and leaves its five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_run m ρ (dats m) (A_eq m) (run_main m ρ)

end Cert.KernelIdeal.Cheb

end
-- ==== Proof.AtIdeal.Pieces.lean ====
/-
  What each order's body leaves, as the kernel's stored values.

  The runs give the accumulator's and the output buffer's final contents as lists of whole-buffer pieces. Read
  back, they are the body's three stored values composed: at order 0 one accumulation step over the zero fill;
  at the later orders one accumulation step over the accumulator found; at order 4 the output buffer holds the
  accumulator after that step, plus the bias.
-/
import proofs.«131824_j13288628814252_1_alg».proof.Proof.AtIdeal.Frame
import Idealize.ShloMosaic.Lib.Pipeline.Value

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Order 0 leaves one accumulation step over the zero fill. -/
theorem accFirst_eq (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : isFirst i) (hc1 : ¬isLast i) (x0 : Vec F S1x4000x256 .bf16) (x1 : Vec F S1x256x256 .bf16) (x2 : Vec F S256 .f32) :
    accFirst c i arg2 harg2 arg3 harg3 arg4 harg4 arg5 harg5 arg6 harg6 hc0 hc1 x0 x1 x2 = k0_pay2 (k0_pay1 (F := F)) x0 x1 := by
  unfold accFirst
  rw [View.read_writes_eq_canon _ _ _ (accFirst_cover c i arg2 harg2 arg3 harg3 arg4 harg4 arg5 harg5 arg6 harg6 hc0 hc1 x0 x1 x2)]
  unfold runFirst
  dsimp only
  sl_unfold_words
  rw [View.canon_cons_unit_zero (S := S4000x256) hz2, View.readCov_unit_zero (S := S4000x256) _ hz2]
  simp only [View.readAt_eq_ld, harg2.read_unread, harg3.read_unread, harg4.read_unread, harg6.read_unread,
    View.ld_unit_zero (S := S4000x256) hz2, View.ld_unit_zero (S := S1x4000x256) hz3, View.ld_unit_zero (S := S1x256x256) hz3,
    View.ld_unit_zero (S := S256) hz1, View.readCov_unit_zero (S := S4000x256) _ hz2]

/-- Orders 1 to 3 leave one accumulation step over the accumulator they found. -/
theorem accMid_eq (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : ¬isLast i) (x0 : Vec F S1x4000x256 .bf16) (x1 : Vec F S1x256x256 .bf16) (x2 : Vec F S256 .f32) (xa : Vec F S4000x256 .f32) :
    accMid c i arg2 harg2 arg3 harg3 arg4 harg4 arg5 harg5 arg6 harg6 hc0 hc1 x0 x1 x2 xa = k0_pay2 xa x0 x1 := by
  unfold accMid
  rw [View.read_writes_eq_canon _ _ _ (accMid_cover c i arg2 harg2 arg3 harg3 arg4 harg4 arg5 harg5 arg6 harg6 hc0 hc1 x0 x1 x2 xa)]
  unfold runMid
  dsimp only
  sl_unfold_words
  rw [View.canon_unit_zero hz2]
  simp only [View.readAt_eq_ld, harg2.read_unread, harg3.read_unread, harg4.read_unread, harg6.read_unread,
    View.ld_unit_zero (S := S4000x256) hz2, View.ld_unit_zero (S := S1x4000x256) hz3, View.ld_unit_zero (S := S1x256x256) hz3,
    View.ld_unit_zero (S := S256) hz1, View.readCov_unit_zero (S := S4000x256) _ hz2]

/-- Order 4 leaves one accumulation step over the accumulator it found, -/
theorem accLast_eq (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) :
    accLast c i arg2 harg2 arg3 harg3 arg4 harg4 arg5 harg5 arg6 harg6 hc0 hc1 x0 x1 x2 xa = k0_pay2 xa x0 x1 := by
  unfold accLast
  rw [View.read_writes_eq_canon _ _ _ (accLast_cover c i arg2 harg2 arg3 harg3 arg4 harg4 arg5 harg5 arg6 harg6 hc0 hc1 x0 x1 x2 xa)]
  unfold runLast
  dsimp only
  sl_unfold_words
  rw [View.canon_unit_zero hz2]
  simp only [View.readAt_eq_ld, harg2.read_unread, harg3.read_unread, harg4.read_unread, harg6.read_unread,
    View.ld_unit_zero (S := S4000x256) hz2, View.ld_unit_zero (S := S1x4000x256) hz3, View.ld_unit_zero (S := S1x256x256) hz3,
    View.ld_unit_zero (S := S256) hz1, View.readCov_unit_zero (S := S4000x256) _ hz2]

/-- and in the output buffer that accumulator plus the bias. -/
theorem outLast_eq (c : Dev nD) (i : grid0.Coords) (arg2 : Memref sig .tc .vmem S1x4000x256 .bf16) (harg2 : arg2.IsWhole) (arg3 : Memref sig .tc .vmem S1x256x256 .bf16) (harg3 : arg3.IsWhole) (arg4 : Memref sig .tc .vmem S256 .f32) (harg4 : arg4.IsWhole) (arg5 : Memref sig .tc .vmem S4000x256 .f32) (harg5 : arg5.IsWhole) (arg6 : Memref sig .tc .vmem S4000x256 .f32) (harg6 : arg6.IsWhole) (hc0 : ¬isFirst i) (hc1 : isLast i) (x0 : Vec F S1x4000x256 .bf16) (x1 : Vec F S1x256x256 .bf16) (x2 : Vec F S256 .f32) (xa : Vec F S4000x256 .f32) :
    outLast c i arg2 harg2 arg3 harg3 arg4 harg4 arg5 harg5 arg6 harg6 hc0 hc1 x0 x1 x2 xa = k0_pay3 (k0_pay2 xa x0 x1) x2 := by
  unfold outLast
  rw [View.read_writes_eq_canon _ _ _ (outLast_cover c i arg2 harg2 arg3 harg3 arg4 harg4 arg5 harg5 arg6 harg6 hc0 hc1 x0 x1 x2 xa)]
  unfold runLast
  dsimp only
  sl_unfold_words
  rw [View.canon_unit_zero hz2]
  simp only [View.readAt_eq_ld, harg2.read_unread, harg3.read_unread, harg4.read_unread, harg6.read_unread,
    View.ld_unit_zero (S := S4000x256) hz2, View.ld_unit_zero (S := S1x4000x256) hz3, View.ld_unit_zero (S := S1x256x256) hz3,
    View.ld_unit_zero (S := S256) hz1, View.readCov_unit_zero (S := S4000x256) _ hz2]

end Cert.KernelIdeal.Cheb

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.AtIdeal.Payload.lean ====
/-
  The three values the body of the Chebyshev graph-convolution kernel stores, read entry by entry at the ideal
  values (floats as extended reals, a change of float format the identity).

  The kernel accumulates, over the orders of the Chebyshev polynomial, the product of a block of rows of the
  order's basis matrix T with the order's weight matrix W, and adds the bias when the last order is done. Its body
  stores three values, each a [4000, 256] array:
    • the zero fill that opens the accumulation: every entry is 0;
    • one accumulation step: the accumulator plus the product of the row block of T, [1, 4000, 256] with its
      leading unit axis dropped, and the weight matrix, [1, 256, 256] likewise: entry (p, q) is
      a (p, q) + ∑ j, t (0, p, j) · w (0, j, q);
    • the stored output: the accumulator plus the bias vector, [256], spread along the rows: entry (p, q) is
      a (p, q) + b q.
  Each is proved by pushing the index through the pointwise sum, reading the layout operations (a cast to the same
  shape, a dropped or added leading unit axis, one row repeated over all rows) at coordinates, and reading the matrix
  product into the zero array as the sum over the one contracted axis.
-/
import proofs.«131824_j13288628814252_1_alg».proof.Proof.Gen.KernelIdeal.Skeleton
import proofs.«131824_j13288628814252_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx

namespace Cert.KernelIdeal.Cheb

/-! ## The index maps of the product's dimension numbers

The product contracts the left operand's axis 1 with the right operand's axis 0, keeps the left operand's rows and the
right operand's columns, and batches nothing. The four facts below say so of the index maps, one per operand axis. -/

/-- The left operand is read at the output's row. -/
theorem lhs_row (i : S4000x256.Idx) (k : dot_S4000x256_S256x256_S4000x256_1_0_0_1_n_n.contr.Idx) :
    (dot_S4000x256_S256x256_S4000x256_1_0_0_1_n_n.lhsIdx i k 0).val = (i 0).val := by
  unfold DotDims.lhsIdx
  rw [dif_neg (show ¬(0 : Fin S4000x256.rank) ∈ dot_S4000x256_S256x256_S4000x256_1_0_0_1_n_n.lhsBatch by decide),
    dif_pos (show (0 : Fin S4000x256.rank) ∈ dot_S4000x256_S256x256_S4000x256_1_0_0_1_n_n.lhsNonContracting by decide)]
  rfl

/-- The left operand's column is the contracted coordinate. -/
theorem lhs_col (i : S4000x256.Idx) (k : dot_S4000x256_S256x256_S4000x256_1_0_0_1_n_n.contr.Idx) :
    (dot_S4000x256_S256x256_S4000x256_1_0_0_1_n_n.lhsIdx i k 1).val = (k ⟨0, by decide⟩).val :=
  dot_S4000x256_S256x256_S4000x256_1_0_0_1_n_n.lhsIdx_val_of_single rfl i k

/-- The right operand's row is the contracted coordinate. -/
theorem rhs_row (i : S4000x256.Idx) (k : dot_S4000x256_S256x256_S4000x256_1_0_0_1_n_n.contr.Idx) :
    (dot_S4000x256_S256x256_S4000x256_1_0_0_1_n_n.rhsIdx i k 0).val = (k ⟨0, by decide⟩).val :=
  dot_S4000x256_S256x256_S4000x256_1_0_0_1_n_n.rhsIdx_val_of_single rfl i k

/-- The right operand is read at the output's column. -/
theorem rhs_col (i : S4000x256.Idx) (k : dot_S4000x256_S256x256_S4000x256_1_0_0_1_n_n.contr.Idx) :
    (dot_S4000x256_S256x256_S4000x256_1_0_0_1_n_n.rhsIdx i k 1).val = (i 1).val := by
  unfold DotDims.rhsIdx
  rw [dif_neg (show ¬(1 : Fin S256x256.rank) ∈ dot_S4000x256_S256x256_S4000x256_1_0_0_1_n_n.rhsBatch by decide),
    dif_pos (show (1 : Fin S256x256.rank) ∈ dot_S4000x256_S256x256_S4000x256_1_0_0_1_n_n.rhsNonContracting by decide)]
  rfl

/-- The product of a [4000, 256] and a [256, 256] matrix accumulated into the zero array: entry (p, q) is the sum over
    the shared axis of the products of the left row and the right column. -/
theorem product_apply (A : FVec Ideal S4000x256 .bf16) (B : FVec Ideal S256x256 .bf16) (p : Fin 4000) (q : Fin 256) :
    FloatOps.matmul dot_S4000x256_S256x256_S4000x256_1_0_0_1_n_n none A B
        (constant (F := Ideal) S4000x256 .f32 0x00000000#32) (ix2 p q)
      = ∑ j : Fin 256, A (ix2 p j) * B (ix2 j q) :=
  Cert.LibPlainMatmul.matmul_zero_apply dot_S4000x256_S256x256_S4000x256_1_0_0_1_n_n none rfl rfl
    lhs_row lhs_col rhs_row rhs_col A B p q

/-! ## The three stored values -/

/-- The zero fill: every entry is 0. -/
theorem zeroFill_apply (p : Fin 4000) (q : Fin 256) : k0_pay1 (F := Ideal) (ix2 p q) = 0 := by
  unfold k0_pay1
  rw [shapeCast_self]
  exact Ideal.ofBits_zero_f32

/-- One accumulation step: the accumulator plus the row block of T times the weight matrix (the leading unit axis of
    both blocks dropped). -/
theorem accumulate_apply (a : Vec Ideal S4000x256 .f32) (t : Vec Ideal S1x4000x256 .bf16)
    (w : Vec Ideal S1x256x256 .bf16) (p : Fin 4000) (q : Fin 256) :
    k0_pay2 (F := Ideal) a t w (ix2 p q) = a (ix2 p q) + ∑ j : Fin 256, t (ix3 0 p j) * w (ix3 0 j q) := by
  unfold k0_pay2
  rw [shapeCast_self, addf_apply]
  refine congrArg (a (ix2 p q) + ·) ?_
  refine (product_apply _ _ p q).trans ?_
  refine Finset.sum_congr rfl fun j _ => ?_
  rw [shapeCast_1ab_ab_apply, shapeCast_1ab_ab_apply]

/-- The stored output: accumulator plus the bias of the column. -/
theorem withBias_apply (a : Vec Ideal S4000x256 .f32) (b : Vec Ideal S256 .f32) (p : Fin 4000) (q : Fin 256) :
    k0_pay3 (F := Ideal) a b (ix2 p q) = a (ix2 p q) + b (ix1 q) := by
  unfold k0_pay3
  rw [addf_apply, broadcastTo_1b_ab_apply, shapeCast_a_1a_apply]

end Cert.KernelIdeal.Cheb

end
-- ==== Proof.AtIdeal.Blocks.lean ====
/-
  The three input windows' blocks, entry by entry, as entries of the arrays the launch finds.

  The grid is 10 × 5 and is walked with the order fastest: position t is row block t / 5 at Chebyshev order
  t % 5. The stacked polynomials T (orders × 40000 rows × 256 features) are cut into blocks of one order and
  4000 rows, and the position's block is the one at (order, row block, 0); the stacked weights (orders × 256
  × 256) are cut into one 256 × 256 matrix per order, and the position's block is the one of its order; the
  bias is a single block. A block's entry at an inner coordinate is the array's entry at
  block index × block size + inner coordinate on each axis: so entry (0, p, j) of the first block is
  T (t % 5, 4000 (t / 5) + p, j), entry (0, j, q) of the second is W (t % 5, j, q), and entry q of the third is
  bias q.
-/
import proofs.«131824_j13288628814252_1_alg».proof.Proof.AtIdeal.Entry
import Idealize.ShloMosaic.Lib.ValueIdx

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The block indices over the grid -/

/-- The three index maps at position t, decided once over the fifty positions: the polynomial stack's block
    is (t % 5, t / 5, 0), the weight stack's is (t % 5, 0, 0), the bias's is (0). -/
theorem blockIndex_facts : ∀ t : Fin cfg0.N,
    win0_0.index t (0 : Fin 3) = t.val % 5 ∧ win0_0.index t (1 : Fin 3) = t.val / 5 ∧ win0_0.index t (2 : Fin 3) = 0
    ∧ win0_1.index t (0 : Fin 3) = t.val % 5 ∧ win0_1.index t (1 : Fin 3) = 0 ∧ win0_1.index t (2 : Fin 3) = 0
    ∧ win0_2.index t (0 : Fin 1) = 0 :=
  (by decide +kernel : ∀ t : Fin grid0.N, _)

/-- A grid position is below fifty. -/
private theorem pos_lt (t : Fin cfg0.N) : t.val < 50 := lt_of_lt_of_eq t.isLt (show cfg0.N = 50 from N_0)

/-! ## The blocks' entries -/

/-- Entry (0, p, j) of the polynomial stack's block at position t is T (t % 5, 4000 (t / 5) + p, j). -/
theorem block0_apply (c : Dev nD) (t : Fin cfg0.N) (p : Fin 4000) (j : Fin 256) :
    blockAt m c 0 t (ix3 (0 : Fin 1) p j)
      = entryVal m c main_v100 (ix3 (⟨t.val % 5, Nat.mod_lt _ (by decide)⟩ : Fin 5)
          (⟨4000 * (t.val / 5) + p.val, by have := pos_lt t; have := p.isLt; omega⟩ : Fin 40000) j) := by
  unfold blockAt
  rw [View.read_apply]
  show entryVal m c main_v100 (((cfg0.win 0).blk t).view.emb (ix3 (0 : Fin 1) p j)) = entryVal m c main_v100 _
  generalize entryVal m c main_v100 = A
  refine congrArg A ?_
  obtain ⟨e0, e1, e2, -⟩ := blockIndex_facts t
  funext a; apply Fin.ext
  match a with
  | ⟨0, _⟩ => show win0_0.index t (0 : Fin 3) * 1 + 1 * (0 : Fin 1).val = t.val % 5; rw [e0]; simp
  | ⟨1, _⟩ => show win0_0.index t (1 : Fin 3) * 4000 + 1 * p.val = 4000 * (t.val / 5) + p.val; omega
  | ⟨2, _⟩ => show win0_0.index t (2 : Fin 3) * 256 + 1 * j.val = j.val; omega

/-- Entry (0, j, q) of the weight stack's block at position t is W (t % 5, j, q). -/
theorem block1_apply (c : Dev nD) (t : Fin cfg0.N) (j q : Fin 256) :
    blockAt m c 1 t (ix3 (0 : Fin 1) j q)
      = entryVal m c main_v101 (ix3 (⟨t.val % 5, Nat.mod_lt _ (by decide)⟩ : Fin 5) j q) := by
  unfold blockAt
  rw [View.read_apply]
  show entryVal m c main_v101 (((cfg0.win 1).blk t).view.emb (ix3 (0 : Fin 1) j q)) = entryVal m c main_v101 _
  generalize entryVal m c main_v101 = A
  refine congrArg A ?_
  obtain ⟨-, -, -, e0, e1, e2, -⟩ := blockIndex_facts t
  funext a; apply Fin.ext
  match a with
  | ⟨0, _⟩ => show win0_1.index t (0 : Fin 3) * 1 + 1 * (0 : Fin 1).val = t.val % 5; rw [e0]; simp
  | ⟨1, _⟩ => show win0_1.index t (1 : Fin 3) * 256 + 1 * j.val = j.val; omega
  | ⟨2, _⟩ => show win0_1.index t (2 : Fin 3) * 256 + 1 * q.val = q.val; omega

/-- Entry q of the bias's one block is bias q, at every position. -/
theorem block2_apply (c : Dev nD) (t : Fin cfg0.N) (q : Fin 256) :
    blockAt m c 2 t (ix1 q) = entryVal m c main_arg4 (ix1 q) := by
  unfold blockAt
  rw [View.read_apply]
  show entryVal m c main_arg4 (((cfg0.win 2).blk t).view.emb (ix1 q)) = entryVal m c main_arg4 _
  generalize entryVal m c main_arg4 = A
  refine congrArg A ?_
  obtain ⟨-, -, -, -, -, -, e0⟩ := blockIndex_facts t
  funext a; apply Fin.ext
  match a with
  | ⟨0, _⟩ => show win0_2.index t (0 : Fin 1) * 256 + 1 * q.val = q.val; omega

end Cert.KernelIdeal.Cheb

end
-- ==== Proof.AtIdeal.Accumulate.lean ====
/-
  The accumulator, entry by entry, at the ideal values.

  Write A for the stacked Chebyshev orders [5, 40000, 256] and Wt for the stacked weights [5, 256, 256] as the
  launch finds them. Position t = 5·i + k of the grid works on rows 4000·i … 4000·i + 3999 at order k. After it,
  entry (p, q) of the accumulator is the partial sum

      0 + Σ_j A[0, n, j]·Wt[0, j, q] + … + Σ_j A[k, n, j]·Wt[k, j, q],      n = 4000·i + p,

  added left to right (`partialSum`): at k = 0 the body zeroes the accumulator and adds order 0's product; at
  every later order it adds that order's product to what the position before left — induction on the position.
  At k = 4 the output buffer's entry (p, q) is the full sum plus the bias of column q.
-/
import proofs.«131824_j13288628814252_1_alg».proof.Proof.AtIdeal.Pieces
import proofs.«131824_j13288628814252_1_alg».proof.Proof.AtIdeal.Payload
import proofs.«131824_j13288628814252_1_alg».proof.Proof.AtIdeal.Blocks

set_option maxRecDepth 16384

noncomputable section

open scoped BigOperators

namespace Cert.KernelIdeal.Cheb

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Order `k`'s product at row `n`, column `q`: `Σ_j A[k, n, j] · Wt[k, j, q]`. -/
def orderTerm (A : Vec Ideal S5x40000x256 .bf16) (Wt : Vec Ideal S5x256x256 .bf16) (k : Fin 5) (n : Fin 40000) (q : Fin 256) : EReal :=
  ∑ j : Fin 256, A (ix3 k n j) * Wt (ix3 k j q)

/-- `0 + order 0 + … + order k`, added left to right. -/
def partialSum (A : Vec Ideal S5x40000x256 .bf16) (Wt : Vec Ideal S5x256x256 .bf16) (n : Fin 40000) (q : Fin 256) : (k : ℕ) → k < 5 → EReal
  | 0, h => 0 + orderTerm A Wt ⟨0, h⟩ n q
  | k + 1, h => partialSum A Wt n q k (Nat.lt_of_succ_lt h) + orderTerm A Wt ⟨k + 1, h⟩ n q

theorem partialSum_first (A : Vec Ideal S5x40000x256 .bf16) (Wt : Vec Ideal S5x256x256 .bf16) (n : Fin 40000) (q : Fin 256)
    (k : ℕ) (hk : k < 5) (h0 : k = 0) : partialSum A Wt n q k hk = 0 + orderTerm A Wt ⟨k, hk⟩ n q := by
  subst h0; rfl

theorem partialSum_next (A : Vec Ideal S5x40000x256 .bf16) (Wt : Vec Ideal S5x256x256 .bf16) (n : Fin 40000) (q : Fin 256)
    (k : ℕ) (hk : k < 5) (hpos : k ≠ 0) :
    partialSum A Wt n q k hk = partialSum A Wt n q (k - 1) (by omega) + orderTerm A Wt ⟨k, hk⟩ n q := by
  cases k with
  | zero => exact absurd rfl hpos
  | succ k => rfl

/-- The three input blocks at a position, at their literal types. -/
abbrev tBlock (c : Dev nD) (t : Fin cfg0.N) : Vec Ideal S1x4000x256 .bf16 := blockAt m c 0 t
abbrev wBlock (c : Dev nD) (t : Fin cfg0.N) : Vec Ideal S1x256x256 .bf16 := blockAt m c 1 t
abbrev bBlock (c : Dev nD) (t : Fin cfg0.N) : Vec Ideal S256 .f32 := blockAt m c 2 t

/-- The stack and the weights as the launch finds them, at their literal types. -/
abbrev stackArr (c : Dev nD) : Vec Ideal S5x40000x256 .bf16 := entryVal m c main_v100
abbrev weightArr (c : Dev nD) : Vec Ideal S5x256x256 .bf16 := entryVal m c main_v101
abbrev biasArr (c : Dev nD) : Vec Ideal S256 .f32 := entryVal m c main_arg4

theorem tBlock_apply (c : Dev nD) (t : Fin cfg0.N) (p : Fin 4000) (j : Fin 256) :
    tBlock m c t (ix3 (0 : Fin 1) p j) = stackArr m c (ix3 (⟨t.val % 5, Nat.mod_lt _ (by decide)⟩ : Fin 5)
      (⟨4000 * (t.val / 5) + p.val, by have := lt_of_lt_of_eq t.isLt (show cfg0.N = 50 from N_0); have := p.isLt; omega⟩ : Fin 40000) j) :=
  block0_apply m c t p j
theorem wBlock_apply (c : Dev nD) (t : Fin cfg0.N) (j q : Fin 256) :
    wBlock m c t (ix3 (0 : Fin 1) j q) = weightArr m c (ix3 (⟨t.val % 5, Nat.mod_lt _ (by decide)⟩ : Fin 5) j q) :=
  block1_apply m c t j q
theorem bBlock_apply (c : Dev nD) (t : Fin cfg0.N) (q : Fin 256) : bBlock m c t (ix1 q) = biasArr m c (ix1 q) :=
  block2_apply m c t q

/-- The product of the two blocks at position `t` is that position's order's term at the block's rows. -/
theorem blocks_term (c : Dev nD) (t : Fin cfg0.N) (p : Fin 4000) (q : Fin 256) (n : Fin 40000) (k : ℕ) (hk : k < 5)
    (hn : n.val = 4000 * (t.val / 5) + p.val) (hkt : k = t.val % 5) :
    (∑ j : Fin 256, tBlock m c t (ix3 (0 : Fin 1) p j) * wBlock m c t (ix3 (0 : Fin 1) j q))
      = orderTerm (stackArr m c) (weightArr m c) ⟨k, hk⟩ n q := by
  unfold orderTerm
  refine Finset.sum_congr rfl fun j _ => ?_
  rw [tBlock_apply, wBlock_apply]
  have e1 : (⟨t.val % 5, Nat.mod_lt _ (by decide)⟩ : Fin 5) = ⟨k, hk⟩ := Fin.ext hkt.symm
  have e2 : (⟨4000 * (t.val / 5) + p.val, by have := lt_of_lt_of_eq t.isLt (show cfg0.N = 50 from N_0); have := p.isLt; omega⟩ : Fin 40000) = n := Fin.ext hn.symm
  rw [e1, e2]

/-- At order 0 the accumulator is the zero fill plus the blocks' product. -/
theorem accAt_step_first (c : Dev nD) (t : Fin cfg0.N) (h0 : t.val % 5 = 0) (p : Fin 4000) (q : Fin 256) :
    accAt m c t.val t.isLt (ix2 p q) = 0 + ∑ j : Fin 256, tBlock m c t (ix3 (0 : Fin 1) p j) * wBlock m c t (ix3 (0 : Fin 1) j q) := by
  have h1 : ¬t.val % 5 = 4 := by omega
  refine (congrFun (accAt_first m c t h0 h1) (ix2 p q)).trans ?_
  refine (congrFun (accFirst_eq (F := Ideal) c (grid0.coords t) (stg0 t) (stg0_whole t) (stg1 t) (stg1_whole t) (stg2 t) (stg2_whole t) (stg3 t) (stg3_whole t) accM (Memref.isWhole_whole _) ((isFirst_iff t).mpr h0) (fun h => h1 ((isLast_iff t).mp h)) (blockAt m c 0 t) (blockAt m c 1 t) (blockAt m c 2 t)) (ix2 p q)).trans ?_
  refine (accumulate_apply (k0_pay1 (F := Ideal)) (tBlock m c t) (wBlock m c t) p q).trans ?_
  rw [zeroFill_apply]

/-- At a later order it is what the position before left plus the blocks' product. -/
theorem accAt_step_next (c : Dev nD) (t : Fin cfg0.N) (h0 : ¬t.val % 5 = 0) (p : Fin 4000) (q : Fin 256) :
    accAt m c t.val t.isLt (ix2 p q)
      = accBefore m c t (ix2 p q) + ∑ j : Fin 256, tBlock m c t (ix3 (0 : Fin 1) p j) * wBlock m c t (ix3 (0 : Fin 1) j q) := by
  by_cases h1 : t.val % 5 = 4
  · refine (congrFun (accAt_last m c t h0 h1) (ix2 p q)).trans ?_
    refine (congrFun (accLast_eq (F := Ideal) c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h1) (blockAt m c 0 t) (blockAt m c 1 t) (blockAt m c 2 t) (accBefore m c t)) (ix2 p q)).trans ?_
    exact accumulate_apply (accBefore m c t) (tBlock m c t) (wBlock m c t) p q
  · refine (congrFun (accAt_mid m c t h0 h1) (ix2 p q)).trans ?_
    refine (congrFun (accMid_eq (F := Ideal) c (grid0.coords t) (stg0 t) (stg0_whole t) (stg1 t) (stg1_whole t) (stg2 t) (stg2_whole t) (stg3 t) (stg3_whole t) accM (Memref.isWhole_whole _) (fun h => h0 ((isFirst_iff t).mp h)) (fun h => h1 ((isLast_iff t).mp h)) (blockAt m c 0 t) (blockAt m c 1 t) (blockAt m c 2 t) (accBefore m c t)) (ix2 p q)).trans ?_
    exact accumulate_apply (accBefore m c t) (tBlock m c t) (wBlock m c t) p q

/-- THE INVARIANT: after position `tv`, entry (p, q) of the accumulator is the partial sum up to the position's
    order, at the block's row. -/
theorem accAt_apply (c : Dev nD) : ∀ (tv : ℕ) (ht : tv < cfg0.N) (p : Fin 4000) (q : Fin 256) (n : Fin 40000) (k : ℕ) (hk : k < 5),
    n.val = 4000 * (tv / 5) + p.val → k = tv % 5 →
    accAt m c tv ht (ix2 p q) = partialSum (stackArr m c) (weightArr m c) n q k hk := by
  intro tv
  induction tv with
  | zero =>
    intro ht p q n k hk hn hkt
    rw [partialSum_first _ _ _ _ k hk (by omega)]
    refine (accAt_step_first m c ⟨0, ht⟩ rfl p q).trans ?_
    rw [blocks_term m c ⟨0, ht⟩ p q n k hk hn hkt]
  | succ tv ih =>
    intro ht p q n k hk hn hkt
    by_cases h0 : (tv + 1) % 5 = 0
    · rw [partialSum_first _ _ _ _ k hk (by omega)]
      refine (accAt_step_first m c ⟨tv + 1, ht⟩ h0 p q).trans ?_
      rw [blocks_term m c ⟨tv + 1, ht⟩ p q n k hk hn hkt]
    · rw [partialSum_next _ _ _ _ k hk (by omega)]
      refine (accAt_step_next m c ⟨tv + 1, ht⟩ h0 p q).trans ?_
      rw [blocks_term m c ⟨tv + 1, ht⟩ p q n k hk hn hkt]
      refine congrArg (· + _) ?_
      exact ih (Nat.lt_of_succ_lt ht) p q n (k - 1) (by omega) (by omega) (by omega)

/-- At order 4 the output buffer's entry (p, q) is the full sum plus the bias of column `q`. -/
theorem outAt_apply (c : Dev nD) (t : Fin cfg0.N) (h4 : t.val % 5 = 4) (p : Fin 4000) (q : Fin 256) (n : Fin 40000)
    (hn : n.val = 4000 * (t.val / 5) + p.val) :
    outAt m c t (ix2 p q) = partialSum (stackArr m c) (weightArr m c) n q 4 (by decide) + biasArr m c (ix1 q) := by
  have h0 : ¬t.val % 5 = 0 := by omega
  refine (congrFun (outAt_last m c t h0 h4) (ix2 p q)).trans ?_
  refine (congrFun (outLast_eq (F := Ideal) c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h4) (blockAt m c 0 t) (blockAt m c 1 t) (blockAt m c 2 t) (accBefore m c t)) (ix2 p q)).trans ?_
  refine (withBias_apply _ (bBlock m c t) p q).trans ?_
  rw [bBlock_apply]
  refine congrArg (· + _) ?_
  refine (accumulate_apply (accBefore m c t) (tBlock m c t) (wBlock m c t) p q).trans ?_
  rw [blocks_term m c t p q n 4 (by decide) hn (by omega), partialSum_next _ _ _ _ 4 (by decide) (by decide)]
  refine congrArg (· + _) ?_
  exact accAt_apply m c (t.val - 1) _ p q n 3 (by decide) (by omega) (by omega)

end Cert.KernelIdeal.Cheb

end
-- ==== Proof.AtIdeal.Result.lean ====
/-
  The kernel program's result array, at the ideal values.

  The pipeline writes the output window's block back at every position of order 4; position t = 5·i + 4 writes
  rows 4000·i … 4000·i + 3999, whose entry (p, q) is the full sum of the five orders' products at row
  4000·i + p plus the bias of column q. These ten blocks tile the [40000, 256] array, so after the run the
  array is `chebResult` of the stacked orders, the stacked weights and the bias as the launch found them.
-/
import proofs.«131824_j13288628814252_1_alg».proof.Proof.AtIdeal.Accumulate

set_option maxRecDepth 16384

noncomputable section

open scoped BigOperators

namespace Cert.KernelIdeal.Cheb

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result array as a function of the stacked orders, the stacked weights and the bias. -/
def chebResult (A : Vec Ideal S5x40000x256 .bf16) (Wt : Vec Ideal S5x256x256 .bf16) (b : Vec Ideal S256 .f32) : Vec Ideal S40000x256 .f32 :=
  fun i => partialSum A Wt (i 0) (i 1) 4 (by decide) + b (ix1 (i 1))

theorem chebResult_apply (A : Vec Ideal S5x40000x256 .bf16) (Wt : Vec Ideal S5x256x256 .bf16) (b : Vec Ideal S256 .f32)
    (n : Fin 40000) (q : Fin 256) : chebResult A Wt b (ix2 n q) = partialSum A Wt n q 4 (by decide) + b (ix1 q) := rfl

/-- The output window's block index at position `t` is (t / 5, 0). -/
theorem outIndex_facts : ∀ t : Fin cfg0.N, win0_3.index t (0 : Fin 2) = t.val / 5 ∧ win0_3.index t (1 : Fin 2) = 0 :=
  (by decide +kernel : ∀ t : Fin grid0.N, _)

theorem pos_lt50 (t : Fin cfg0.N) : t.val < 50 := lt_of_lt_of_eq t.isLt (show cfg0.N = 50 from N_0)

/-- Where entry (p, q) of the block at position `t` sits in the array. -/
theorem outEmb (t : Fin cfg0.N) (p : Fin 4000) (q : Fin 256) :
    ((cfg0.win 3).blk t).view.emb (ix2 p q)
      = ix2 (⟨4000 * (t.val / 5) + p.val, by have := pos_lt50 t; have := p.isLt; omega⟩ : Fin 40000) q := by
  obtain ⟨e0, e1⟩ := outIndex_facts t
  funext a; apply Fin.ext
  match a with
  | ⟨0, _⟩ => show win0_3.index t (0 : Fin 2) * 4000 + 1 * p.val = 4000 * (t.val / 5) + p.val; omega
  | ⟨1, _⟩ => show win0_3.index t (1 : Fin 2) * 256 + 1 * q.val = q.val; omega

/-- WHAT A POSITION OF ORDER 4 WRITES BACK is its block of `chebResult`. -/
theorem flushed_eq (c : Dev nD) (t : Fin cfg0.N) (hf : (cfg0.win 3).flush t = true) :
    (dats m 0 c).flushed 3 t = ((cfg0.win 3).blk t).view.read (Elt Ideal) (chebResult (stackArr m c) (weightArr m c) (biasArr m c)) := by
  have h4 : t.val % 5 = 4 := (flush0_3 t).mp hf
  show (cfg0.win 3).cut (grid0.coords t) ((dats m 0 c).after 3 t) = _
  rw [after3]
  refine funext fun (y : S4000x256.Idx) => ?_
  rw [View.read_apply]
  obtain ⟨p, q, rfl⟩ : ∃ (p : Fin 4000) (q : Fin 256), y = ix2 p q := ⟨y 0, y 1, eq_ix2 y⟩
  show outAt m c t (ix2 p q) = chebResult (stackArr m c) (weightArr m c) (biasArr m c) (((cfg0.win 3).blk t).view.emb (ix2 p q))
  rw [outEmb t p q, chebResult_apply]
  exact outAt_apply m c t h4 p q _ rfl

/-- An index of the array is in position `t`'s block iff each coordinate is in the block's range. -/
theorem mem_outBlock (t : Fin cfg0.N) (i : S40000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v102).slice (win0_3.rect t)).set ↔ _
  rw [View.set_slice_whole, Rect.mem_set_unit]
  exact Iff.rfl

/-- Every index of the array is in the block of the order-4 position of its row block. -/
theorem out_cover (i : S40000x256.Idx) :
    ∃ t : Fin cfg0.N, (cfg0.win 3).flush t = true ∧ i ∈ ((cfg0.win 3).blk t).view.set := by
  have hi0 : (i 0).val < 40000 := (i 0).isLt
  have hi1 : (i 1).val < 256 := (i 1).isLt
  let t : Fin cfg0.N := ⟨5 * ((i 0).val / 4000) + 4, lt_of_lt_of_eq (by omega) (show 50 = cfg0.N from N_0.symm)⟩
  have htv : t.val = 5 * ((i 0).val / 4000) + 4 := rfl
  refine ⟨t, (flush0_3 t).mpr (by rw [htv]; omega), ?_⟩
  rw [mem_outBlock]
  obtain ⟨e0, e1⟩ := outIndex_facts t
  intro a
  match a with
  | ⟨0, _⟩ => show win0_3.index t (0 : Fin 2) * 4000 ≤ (i 0).val ∧ (i 0).val < win0_3.index t (0 : Fin 2) * 4000 + 4000; rw [e0, htv]; omega
  | ⟨1, _⟩ => show win0_3.index t (1 : Fin 2) * 256 ≤ (i 1).val ∧ (i 1).val < win0_3.index t (1 : Fin 2) * 256 + 256; rw [e1]; omega

/-- THE ARRAY after the run. -/
theorem final_out (c : Dev nD) :
    (dats m 0 c).arrAt 3 cfg0.N = chebResult (stackArr m c) (weightArr m c) (biasArr m c) :=
  (dats m 0 c).arrAt_eq_of_cover 3 (chebResult (stackArr m c) (weightArr m c) (biasArr m c)) (fun t hf => flushed_eq m c t hf) out_cover

/-- The program's run, read: the result array is `chebResult` of what the launch found, the arguments unchanged. -/
theorem run_value : θ_run defs (onTc (τ := τ) (main (F := Ideal))) ⟨m, fun _ => 0, ρ⟩ (fun r => ∀ c : Dev nD,
      r.2.mem ((c.tc : Thread nD τ).loc main_v102) = chebResult (stackArr m c) (weightArr m c) (biasArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 3).trans (final_out m c),
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).1 2).trans (((dats m 0 c).arrAt_in 2 rfl _).trans ((A_eq m c 2).trans (entry_arg4 m c)))⟩) (run_main m ρ)

end Cert.KernelIdeal.Cheb

end
-- ==== Proof.AtIdeal.Stack.lean ====
/-
  The stacked Chebyshev orders and the weights, as the kernel launch finds them, read entry by entry.

  Before the launch the program gives each of the five orders T_0 … T_4, a [40000, 256] array of node features,
  a leading axis of extent one, lays the five [1, 40000, 256] arrays end to end along that axis into one
  [5, 40000, 256] array, and changes that array's float format from f32 to bf16; the weights, [5, 256, 256],
  undergo the same change of format. Over the extended reals a change of float format is the identity. Hence

      stacked[k, n, j] = T_k[n, j]          (`stack_apply`),
      converted weights[k, j, q] = W[k, j, q]   (`weights_apply`).

  The concatenation is read without walking the axis: all five pieces have extent one along it, so the piece that
  holds position k is piece k, at position 0 of its own leading axis, with the other two coordinates unchanged.
-/
import proofs.«131824_j13288628814252_1_alg».proof.Proof.Gen.KernelIdeal
import Idealize.ShloMosaic.Lib.ValueIdx
import Idealize.ShloMosaic.Lib.Pipeline.Value

namespace Cert.KernelIdeal.Cheb

open Cert.KernelIdeal Cert.KernelIdeal.Facts₀ Idealize.ShloMosaic Idealize.ShloMosaic.ValueIdx

/-- A [40000, 256] array given a leading axis of extent one, read at (0, n, j), is the array at (n, j): result
    axes 1 and 2 are the array's axes 0 and 1, and neither of those has extent one, so each coordinate is kept. -/
theorem lift_apply (a : Vec Ideal S40000x256 .f32) (n : Fin 40000) (j : Fin 256) :
    broadcastInDim S1x40000x256 ![1, 2] bcast_S40000x256_S1x40000x256_1_2 a (ix3 (0 : Fin 1) n j) = a (ix2 n j) := by
  refine broadcastInDim_apply ![1, 2] bcast_S40000x256_S1x40000x256_1_2 a (ix3 (0 : Fin 1) n j) (ix2 n j) ?_
  intro c
  match c with
  | ⟨0, _⟩ =>
    show n.val = if (40000 : Nat) = 1 then 0 else n.val
    rw [if_neg (by decide)]
  | ⟨1, _⟩ =>
    show j.val = if (256 : Nat) = 1 then 0 else j.val
    rw [if_neg (by decide)]

/-- Entry (k, n, j) of the five orders stacked along a new leading axis and then changed to bf16 is entry (n, j)
    of order k. The change of format is the identity over the extended reals; position k along the stacking axis
    falls in piece k, because every piece has extent one there; and piece k at (0, n, j) is order k at (n, j). -/
theorem stack_apply (a0 a1 a2 a3 a4 : Vec Ideal S40000x256 .f32) (k : Fin 5) (n : Fin 40000) (j : Fin 256) :
    (truncf (F := Ideal) .bf16 (concatenate S5x40000x256 0 [⟨S1x40000x256, broadcastInDim S1x40000x256 ![1, 2] bcast_S40000x256_S1x40000x256_1_2 a0⟩, ⟨S1x40000x256, broadcastInDim S1x40000x256 ![1, 2] bcast_S40000x256_S1x40000x256_1_2 a1⟩, ⟨S1x40000x256, broadcastInDim S1x40000x256 ![1, 2] bcast_S40000x256_S1x40000x256_1_2 a2⟩, ⟨S1x40000x256, broadcastInDim S1x40000x256 ![1, 2] bcast_S40000x256_S1x40000x256_1_2 a3⟩, ⟨S1x40000x256, broadcastInDim S1x40000x256 ![1, 2] bcast_S40000x256_S1x40000x256_1_2 a4⟩] concatenates_S1x40000x256_S1x40000x256_S1x40000x256_S1x40000x256_S1x40000x256_S5x40000x256_d0) bitsLt_bf16_f32 : Vec Ideal S5x40000x256 .bf16) (ix3 k n j)
      = (![a0, a1, a2, a3, a4] k) (ix2 n j) := by
  -- the change of format keeps every entry
  refine (truncf_apply _ bitsLt_bf16_f32 (ix3 k n j)).trans ?_
  -- the five pieces are one family indexed by the order: piece m is order m with its new leading axis
  refine (concatenate_ofFn_unit_apply (t := S5x40000x256) (s₁ := S1x40000x256) (0 : Fin S5x40000x256.rank)
    (fun m : Fin 5 => broadcastInDim S1x40000x256 ![1, 2] bcast_S40000x256_S1x40000x256_1_2 (![a0, a1, a2, a3, a4] m))
    concatenates_S1x40000x256_S1x40000x256_S1x40000x256_S1x40000x256_S1x40000x256_S5x40000x256_d0
    rfl rfl (ix3 k n j) k rfl (ix3 (0 : Fin 1) n j) ?_).trans (lift_apply (![a0, a1, a2, a3, a4] k) n j)
  -- off the stacking axis the piece's index has the stacked index's coordinates
  intro b hb
  match b, hb with
  | ⟨0, _⟩, hb => exact absurd rfl hb
  | ⟨1, _⟩, _ => rfl
  | ⟨2, _⟩, _ => rfl

/-- The weights changed from f32 to bf16 are, over the extended reals, the weights: entry by entry the same number. -/
theorem weights_apply (w : Vec Ideal S5x256x256 .f32) (k : Fin 5) (j q : Fin 256) :
    (truncf (F := Ideal) .bf16 w bitsLt_bf16_f32 : Vec Ideal S5x256x256 .bf16) (ix3 k j q) = w (ix3 k j q) := rfl

end Cert.KernelIdeal.Cheb
-- ==== Proof.ChebGlue.lean ====
/-
  The Chebyshev graph convolution: what the launch finds in the buffers the host operations wrote, as values of
  the reference's stages.

  With x the node features (argument 0), the edges' endpoints (argument 1) and weights (argument 2), both programs
  first normalise the edge weights — a self loop's weight is set to zero, d(v) counts the edges that leave v and are
  no self loop, and edge e = (s, t) gets  a_e = −d(s)^(−1/2) · w_e · d(t)^(−1/2)  (d^(−1/2) read as 0 where d = 0) —
  and then build the Chebyshev orders under the operator  (L y)[s, :] = Σ over edges e = (s, t) of a_e · y[t, :]
  (rows of y gathered at the edges' targets, scaled, and scatter-added at their sources into a zero array):

      T_1 = L x,      T_k = 2 · L T_(k−1) − T_(k−2)   (k = 2, 3, 4; T_0 = x).

  The kernel's program and the reference do this by the same operations in the same order on the same arguments;
  the reference only interleaves its five matrix products with them, and the kernel's program has none before its
  launch. So each order's buffer, as the launch finds it, holds exactly the reference's stage of that order as a
  function of the three arguments: the two composed terms are one term, written over the two programs' own names
  for the same shapes and the same gather and scatter records.

  The kernel's program then stacks T_0 … T_4 along a new leading axis and rounds the stack to bf16 (the array of
  the kernel's first window), and rounds the weights (argument 3) to bf16 (the array of its second window); both
  are stated here over the launch-time contents of the orders' buffers.
-/
import proofs.«131824_j13288628814252_1_alg».proof.Proof.AtIdeal.Entry
import proofs.«131824_j13288628814252_1_alg».proof.Proof.RefReadPatched

set_option maxRecDepth 16384

noncomputable section

namespace Cert.KernelIdeal.Cheb

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ)

/-! ## The Chebyshev orders -/

set_option maxHeartbeats 4000000 in
/-- T_1 = L x: the buffer of the first scatter-add holds the reference's first order. -/
theorem order1_eq (c : Dev nD) :
    entryVal m c main_v45 = Cert.ReferenceIdeal.ReadP.val_main_v48 (F := F) (m ((c : Thread nD τ).loc main_arg0)) (m ((c : Thread nD τ).loc main_arg1)) (m ((c : Thread nD τ).loc main_arg2)) := by
  dsimp only [entryVal]
  simp only [hostOps0, hostOps0_1, hostOps0_2, hostOps0_3, hostOps0_4, List.flatten_cons, List.flatten_nil, List.append_nil, List.cons_append, List.nil_append]
  after_results_simp
  rfl

set_option maxHeartbeats 4000000 in
/-- T_2 = 2 · L T_1 − x. -/
theorem order2_eq (c : Dev nD) :
    entryVal m c main_v61 = Cert.ReferenceIdeal.ReadP.val_main_v68 (F := F) (m ((c : Thread nD τ).loc main_arg0)) (m ((c : Thread nD τ).loc main_arg1)) (m ((c : Thread nD τ).loc main_arg2)) := by
  dsimp only [entryVal]
  simp only [hostOps0, hostOps0_1, hostOps0_2, hostOps0_3, hostOps0_4, List.flatten_cons, List.flatten_nil, List.append_nil, List.cons_append, List.nil_append]
  after_results_simp
  rfl

set_option maxHeartbeats 4000000 in
/-- T_3 = 2 · L T_2 − T_1. -/
theorem order3_eq (c : Dev nD) :
    entryVal m c main_v77 = Cert.ReferenceIdeal.ReadP.val_main_v88 (F := F) (m ((c : Thread nD τ).loc main_arg0)) (m ((c : Thread nD τ).loc main_arg1)) (m ((c : Thread nD τ).loc main_arg2)) := by
  dsimp only [entryVal]
  simp only [hostOps0, hostOps0_1, hostOps0_2, hostOps0_3, hostOps0_4, List.flatten_cons, List.flatten_nil, List.append_nil, List.cons_append, List.nil_append]
  after_results_simp
  rfl

set_option maxHeartbeats 4000000 in
/-- T_4 = 2 · L T_3 − T_2. -/
theorem order4_eq (c : Dev nD) :
    entryVal m c main_v93 = Cert.ReferenceIdeal.ReadP.val_main_v108 (F := F) (m ((c : Thread nD τ).loc main_arg0)) (m ((c : Thread nD τ).loc main_arg1)) (m ((c : Thread nD τ).loc main_arg2)) := by
  dsimp only [entryVal]
  simp only [hostOps0, hostOps0_1, hostOps0_2, hostOps0_3, hostOps0_4, List.flatten_cons, List.flatten_nil, List.append_nil, List.cons_append, List.nil_append]
  after_results_simp
  rfl

/-! ## The two arrays the kernel's windows read -/

/-- An operation of five operands leaves, at its result buffer, its function of the family of the five operands'
    contents, each member being what the operand's own buffer held. -/
theorem nary5_result' {Val : EltTy → Type} {x a b d e y : Ref sig .tc}
    (f : ((k : Fin 5) → ((![x, a, b, d, e] : Fin 5 → Ref sig .tc) k).ty.Contents Val) → y.ty.Contents Val) (hxs hy)
    (V : Valuation τ sig Val) :
    (StableHlo.nary (τ := τ) ![x, a, b, d, e] y f hxs hy).result V (no_index (Proc.devRef .tc y))
      = f (Fin.cons (V (Proc.devRef .tc x)) (Fin.cons (V (Proc.devRef .tc a)) (Fin.cons (V (Proc.devRef .tc b))
          (Fin.cons (V (Proc.devRef .tc d)) (Fin.cons (V (Proc.devRef .tc e)) (fun i => i.elim0)))))) := by
  rw [nary_result]; congr 1; funext k; fin_cases k <;> rfl

set_option maxHeartbeats 4000000 in
/-- The stacked array the kernel's first window reads: the five orders T_0 = x, T_1, …, T_4, each with a leading
    unit axis, concatenated along that axis, then rounded to bf16. -/
theorem stack_eq (c : Dev nD) :
    entryVal m c main_v100 = truncf .bf16 (concatenate S5x40000x256 0 [⟨S1x40000x256, broadcastInDim S1x40000x256 ![1, 2] bcast_S40000x256_S1x40000x256_1_2 (entryVal m c main_arg0)⟩, ⟨S1x40000x256, broadcastInDim S1x40000x256 ![1, 2] bcast_S40000x256_S1x40000x256_1_2 (entryVal m c main_v45)⟩, ⟨S1x40000x256, broadcastInDim S1x40000x256 ![1, 2] bcast_S40000x256_S1x40000x256_1_2 (entryVal m c main_v61)⟩, ⟨S1x40000x256, broadcastInDim S1x40000x256 ![1, 2] bcast_S40000x256_S1x40000x256_1_2 (entryVal m c main_v77)⟩, ⟨S1x40000x256, broadcastInDim S1x40000x256 ![1, 2] bcast_S40000x256_S1x40000x256_1_2 (entryVal m c main_v93)⟩] concatenates_S1x40000x256_S1x40000x256_S1x40000x256_S1x40000x256_S1x40000x256_S5x40000x256_d0) bitsLt_bf16_f32 := by
  dsimp only [entryVal]
  simp only [hostOps0, hostOps0_1, hostOps0_2, hostOps0_3, hostOps0_4, List.flatten_cons, List.flatten_nil, List.append_nil, List.cons_append, List.nil_append]
  simp (disch := decide) only [after_cons, after_nil, nullary_result', unary_result', binary_result', ternary_result',
    reshape_result', nary5_result', nullary_result_ne', unary_result_ne', binary_result_ne', ternary_result_ne',
    reshape_result_ne', nary_result_ne']
  rfl

set_option maxHeartbeats 4000000 in
/-- The array the kernel's second window reads: the five weight matrices rounded to bf16. -/
theorem weights_eq (c : Dev nD) :
    entryVal m c main_v101 = truncf .bf16 (entryVal m c main_arg3) bitsLt_bf16_f32 := by
  dsimp only [entryVal]
  simp only [hostOps0, hostOps0_1, hostOps0_2, hostOps0_3, hostOps0_4, List.flatten_cons, List.flatten_nil, List.append_nil, List.cons_append, List.nil_append]
  after_results_simp

end Cert.KernelIdeal.Cheb

end
-- ==== Proof.ChebSpec.lean ====
/-
  The Chebyshev graph convolution's result as ONE function of the five Chebyshev orders T_0 … T_4 (each a
  [40000, 256] array of node features), the weights W [5, 256, 256] and the bias b [256], over the extended reals:

      out[n, c] = 0 + Σ_j T_0[n, j]·W[0, j, c] + … + Σ_j T_4[n, j]·W[4, j, c] + b[c],

  the sum taken left to right from 0, which is the order in which the kernel accumulates it. The reference adds
  the same five products without the leading 0; `zero_add` is the whole difference (`chebOutAt_eq`).
-/
import Idealize.ShloMosaic.PureOps.Ideal
import Idealize.ShloMosaic.Lib.ValueIdx

noncomputable section

open scoped BigOperators
open Idealize.ShloMosaic Idealize.ShloMosaic.ValueIdx

namespace Cert.Cheb

/-- Node features: 40000 nodes, 256 channels. -/
abbrev Nodes : Shape := ⟨2, ![40000, 256]⟩
/-- The weights: one 256 × 256 matrix per Chebyshev order. -/
abbrev Weights : Shape := ⟨3, ![5, 256, 256]⟩
/-- The bias: one entry per output channel. -/
abbrev Bias : Shape := ⟨1, ![256]⟩

/-- Order `k`'s product at node `n`, output channel `c`: `Σ_j T[n, j] · W[k, j, c]`. -/
def contrib (T : Nodes.Idx → EReal) (W : Weights.Idx → EReal) (k : Fin 5) (n : Fin 40000) (c : Fin 256) : EReal :=
  ∑ j : Fin 256, T (ix2 n j) * W (ix3 k j c)

/-- The result at node `n`, channel `c`: the five orders' products added to 0 in order, then the bias. -/
def chebOutAt (T0 T1 T2 T3 T4 : Nodes.Idx → EReal) (W : Weights.Idx → EReal) (b : Bias.Idx → EReal)
    (n : Fin 40000) (c : Fin 256) : EReal :=
  (((((0 + contrib T0 W 0 n c) + contrib T1 W 1 n c) + contrib T2 W 2 n c) + contrib T3 W 3 n c) + contrib T4 W 4 n c)
    + b (ix1 c)

/-- The result array. -/
def chebOut (T0 T1 T2 T3 T4 : Nodes.Idx → EReal) (W : Weights.Idx → EReal) (b : Bias.Idx → EReal) : Nodes.Idx → EReal :=
  fun i => chebOutAt T0 T1 T2 T3 T4 W b (i 0) (i 1)

theorem chebOut_apply (T0 T1 T2 T3 T4 : Nodes.Idx → EReal) (W : Weights.Idx → EReal) (b : Bias.Idx → EReal)
    (n : Fin 40000) (c : Fin 256) : chebOut T0 T1 T2 T3 T4 W b (ix2 n c) = chebOutAt T0 T1 T2 T3 T4 W b n c := rfl

/-- Without the leading zero: the form in which the reference adds the five products. -/
theorem chebOutAt_eq (T0 T1 T2 T3 T4 : Nodes.Idx → EReal) (W : Weights.Idx → EReal) (b : Bias.Idx → EReal)
    (n : Fin 40000) (c : Fin 256) :
    chebOutAt T0 T1 T2 T3 T4 W b n c
      = ((((contrib T0 W 0 n c + contrib T1 W 1 n c) + contrib T2 W 2 n c) + contrib T3 W 3 n c) + contrib T4 W 4 n c)
        + b (ix1 c) := by
  unfold chebOutAt; rw [zero_add]

end Cert.Cheb

end
-- ==== Proof.ChebReference.lean ====
/-
  The reference program's result is the Chebyshev graph convolution of its own five orders.

  Read one operation at a time, the reference forms, for each order k = 0 … 4, the matrix W_k (the k-th
  [256, 256] slab of the weights, cut out as a [1, 256, 256] slice and re-laid as [256, 256]), the product
  T_k · W_k with T_0 = x and T_1 … T_4 its own recurrence stages, adds the five products left to right,
  and adds the bias along the rows. Entry by entry:

      W_k[j, c]          = W[k, j, c]                      (row-major arithmetic: (j·256 + c) / 256 = j, remainder c)
      (T_k · W_k)[n, c]  = Σ_j T_k[n, j] · W[k, j, c]      (the specification's `contrib`)
      bias row [n, c]    = b[c]

  so the result at [n, c] is contrib_0 + contrib_1 + contrib_2 + contrib_3 + contrib_4 + b[c]: the
  specification `chebOut` without its leading zero. The four recurrence stages T_1 … T_4 enter only as
  arrays that are read at an index; nothing about how they are computed is used.
-/
import proofs.«131824_j13288628814252_1_alg».proof.Proof.RefReadPatched
import proofs.«131824_j13288628814252_1_alg».proof.Proof.ChebSpec

noncomputable section

open scoped BigOperators
open Cert.ReferenceIdeal Cert.ReferenceIdeal.ReadP Cert.Cheb Idealize.ShloMosaic Idealize.ShloMosaic.ValueIdx

namespace Cert.ReferenceIdeal.ChebRef

/-! ## The weight matrices -/

/-- Re-laying a [1, 256, 256] slab as a [256, 256] matrix keeps the row-major position: entry (j, c) of the matrix
    is entry (0, j, c) of the slab, because (j·256 + c) / 256 = j and (j·256 + c) mod 256 = c for j, c < 256. -/
theorem slab_idx (j c : Fin 256) : idx_main_v34 (ix2 j c) = (ix3 0 j c : S1x256x256.Idx) := by
  have hj := j.isLt
  have hc := c.isLt
  funext a
  match a with
  | ⟨0, _⟩ => rfl
  | ⟨1, _⟩ => exact Fin.ext (by show (j.val * 256 + c.val) / 256 % 256 = j.val; omega)
  | ⟨2, _⟩ => exact Fin.ext (by show (j.val * 256 + c.val) % 256 = c.val; omega)

/-- The slab cut out for order 0 starts at 0 along the first axis: its entry (0, j, c) is the weights' (0, j, c). -/
theorem slice0_idx (j c : Fin 256) : idx_main_v33 (ix3 0 j c) = (ix3 0 j c : S5x256x256.Idx) := by
  funext a
  match a with
  | ⟨0, _⟩ => rfl
  | ⟨1, _⟩ => rfl
  | ⟨2, _⟩ => rfl

/-- Order 0's weight matrix, entry by entry: W_0[j, c] = W[0, j, c]. -/
theorem weight0_apply (x3 : (⟨S5x256x256, .f32⟩ : BufTy).Contents (Elt Ideal)) (j c : Fin 256) :
    val_main_v34 (F := Ideal) x3 (ix2 j c) = x3 (ix3 0 j c) := by
  rw [val_main_v34_apply, val_main_v33_apply]
  exact congrArg x3 ((congrArg idx_main_v33 (slab_idx j c)).trans (slice0_idx j c))

/-- The slab cut out for order 1 starts at 1 along the first axis: its entry (0, j, c) is the weights' (1, j, c). -/
theorem slice1_idx (j c : Fin 256) : idx_main_v49 (ix3 0 j c) = (ix3 1 j c : S5x256x256.Idx) := by
  funext a
  match a with
  | ⟨0, _⟩ => rfl
  | ⟨1, _⟩ => rfl
  | ⟨2, _⟩ => rfl

/-- Order 1's weight matrix, entry by entry: W_1[j, c] = W[1, j, c]. -/
theorem weight1_apply (x3 : (⟨S5x256x256, .f32⟩ : BufTy).Contents (Elt Ideal)) (j c : Fin 256) :
    val_main_v50 (F := Ideal) x3 (ix2 j c) = x3 (ix3 1 j c) := by
  rw [val_main_v50_apply, val_main_v49_apply]
  exact congrArg x3 ((congrArg idx_main_v49 (slab_idx j c)).trans (slice1_idx j c))

/-- The slab cut out for order 2 starts at 2 along the first axis: its entry (0, j, c) is the weights' (2, j, c). -/
theorem slice2_idx (j c : Fin 256) : idx_main_v69 (ix3 0 j c) = (ix3 2 j c : S5x256x256.Idx) := by
  funext a
  match a with
  | ⟨0, _⟩ => rfl
  | ⟨1, _⟩ => rfl
  | ⟨2, _⟩ => rfl

/-- Order 2's weight matrix, entry by entry: W_2[j, c] = W[2, j, c]. -/
theorem weight2_apply (x3 : (⟨S5x256x256, .f32⟩ : BufTy).Contents (Elt Ideal)) (j c : Fin 256) :
    val_main_v70 (F := Ideal) x3 (ix2 j c) = x3 (ix3 2 j c) := by
  rw [val_main_v70_apply, val_main_v69_apply]
  exact congrArg x3 ((congrArg idx_main_v69 (slab_idx j c)).trans (slice2_idx j c))

/-- The slab cut out for order 3 starts at 3 along the first axis: its entry (0, j, c) is the weights' (3, j, c). -/
theorem slice3_idx (j c : Fin 256) : idx_main_v89 (ix3 0 j c) = (ix3 3 j c : S5x256x256.Idx) := by
  funext a
  match a with
  | ⟨0, _⟩ => rfl
  | ⟨1, _⟩ => rfl
  | ⟨2, _⟩ => rfl

/-- Order 3's weight matrix, entry by entry: W_3[j, c] = W[3, j, c]. -/
theorem weight3_apply (x3 : (⟨S5x256x256, .f32⟩ : BufTy).Contents (Elt Ideal)) (j c : Fin 256) :
    val_main_v90 (F := Ideal) x3 (ix2 j c) = x3 (ix3 3 j c) := by
  rw [val_main_v90_apply, val_main_v89_apply]
  exact congrArg x3 ((congrArg idx_main_v89 (slab_idx j c)).trans (slice3_idx j c))

/-- The slab cut out for order 4 starts at 4 along the first axis: its entry (0, j, c) is the weights' (4, j, c). -/
theorem slice4_idx (j c : Fin 256) : idx_main_v109 (ix3 0 j c) = (ix3 4 j c : S5x256x256.Idx) := by
  funext a
  match a with
  | ⟨0, _⟩ => rfl
  | ⟨1, _⟩ => rfl
  | ⟨2, _⟩ => rfl

/-- Order 4's weight matrix, entry by entry: W_4[j, c] = W[4, j, c]. -/
theorem weight4_apply (x3 : (⟨S5x256x256, .f32⟩ : BufTy).Contents (Elt Ideal)) (j c : Fin 256) :
    val_main_v110 (F := Ideal) x3 (ix2 j c) = x3 (ix3 4 j c) := by
  rw [val_main_v110_apply, val_main_v109_apply]
  exact congrArg x3 ((congrArg idx_main_v109 (slab_idx j c)).trans (slice4_idx j c))

/-! ## The five products -/

/-- In a product's entry (n, c) the left factor of the j-th term is read at (n, j). -/
theorem left_idx (n : Fin 40000) (c j : Fin 256) : lidx_main_v35 (ix2 n c) j = ix2 n j := by
  funext a
  match a with
  | ⟨0, _⟩ => rfl
  | ⟨1, _⟩ => rfl

/-- In a product's entry (n, c) the right factor of the j-th term is read at (j, c). -/
theorem right_idx (n : Fin 40000) (c j : Fin 256) : ridx_main_v35 (ix2 n c) j = ix2 j c := by
  funext a
  match a with
  | ⟨0, _⟩ => rfl
  | ⟨1, _⟩ => rfl

/-- A row-by-column sum whose right factor `V` is the k-th slab of `W` is the specification's order-k product. -/
theorem rowcol_eq (T : S40000x256.Idx → EReal) (V : S256x256.Idx → EReal) (W : S5x256x256.Idx → EReal) (k : Fin 5)
    (hV : ∀ j c : Fin 256, V (ix2 j c) = W (ix3 k j c)) (n : Fin 40000) (c : Fin 256) :
    ∑ j : Fin 256, T (lidx_main_v35 (ix2 n c) j) * V (ridx_main_v35 (ix2 n c) j) = contrib T W k n c := by
  unfold contrib
  refine Finset.sum_congr rfl fun j _ => ?_
  rw [left_idx, right_idx, hV]

/-- Order 0's product: x · W_0 at (n, c). -/
theorem prod0_apply (x0 : (⟨S40000x256, .f32⟩ : BufTy).Contents (Elt Ideal)) (x3 : (⟨S5x256x256, .f32⟩ : BufTy).Contents (Elt Ideal)) (n : Fin 40000) (c : Fin 256) :
    val_main_v35 (F := Ideal) x0 x3 (ix2 n c) = contrib x0 x3 0 n c := by
  rw [val_main_v35_apply]
  exact rowcol_eq x0 _ x3 0 (weight0_apply x3) n c

/-- Order 1's product: T_1 · W_1 at (n, c), with T_1 the reference's own stage taken as it is. -/
theorem prod1_apply (x0 : (⟨S40000x256, .f32⟩ : BufTy).Contents (Elt Ideal)) (x1 : (⟨S2x320000, .i32⟩ : BufTy).Contents (Elt Ideal)) (x2 : (⟨S320000, .f32⟩ : BufTy).Contents (Elt Ideal)) (x3 : (⟨S5x256x256, .f32⟩ : BufTy).Contents (Elt Ideal)) (n : Fin 40000) (c : Fin 256) :
    val_main_v51 (F := Ideal) x0 x1 x2 x3 (ix2 n c) = contrib (val_main_v48 (F := Ideal) x0 x1 x2) x3 1 n c := by
  rw [val_main_v51_apply]
  generalize val_main_v48 (F := Ideal) x0 x1 x2 = T
  exact rowcol_eq T _ x3 1 (weight1_apply x3) n c

/-- Order 2's product: T_2 · W_2 at (n, c), with T_2 the reference's own stage taken as it is. -/
theorem prod2_apply (x0 : (⟨S40000x256, .f32⟩ : BufTy).Contents (Elt Ideal)) (x1 : (⟨S2x320000, .i32⟩ : BufTy).Contents (Elt Ideal)) (x2 : (⟨S320000, .f32⟩ : BufTy).Contents (Elt Ideal)) (x3 : (⟨S5x256x256, .f32⟩ : BufTy).Contents (Elt Ideal)) (n : Fin 40000) (c : Fin 256) :
    val_main_v71 (F := Ideal) x0 x1 x2 x3 (ix2 n c) = contrib (val_main_v68 (F := Ideal) x0 x1 x2) x3 2 n c := by
  rw [val_main_v71_apply]
  generalize val_main_v68 (F := Ideal) x0 x1 x2 = T
  exact rowcol_eq T _ x3 2 (weight2_apply x3) n c

/-- Order 3's product: T_3 · W_3 at (n, c), with T_3 the reference's own stage taken as it is. -/
theorem prod3_apply (x0 : (⟨S40000x256, .f32⟩ : BufTy).Contents (Elt Ideal)) (x1 : (⟨S2x320000, .i32⟩ : BufTy).Contents (Elt Ideal)) (x2 : (⟨S320000, .f32⟩ : BufTy).Contents (Elt Ideal)) (x3 : (⟨S5x256x256, .f32⟩ : BufTy).Contents (Elt Ideal)) (n : Fin 40000) (c : Fin 256) :
    val_main_v91 (F := Ideal) x0 x1 x2 x3 (ix2 n c) = contrib (val_main_v88 (F := Ideal) x0 x1 x2) x3 3 n c := by
  rw [val_main_v91_apply]
  generalize val_main_v88 (F := Ideal) x0 x1 x2 = T
  exact rowcol_eq T _ x3 3 (weight3_apply x3) n c

/-- Order 4's product: T_4 · W_4 at (n, c), with T_4 the reference's own stage taken as it is. -/
theorem prod4_apply (x0 : (⟨S40000x256, .f32⟩ : BufTy).Contents (Elt Ideal)) (x1 : (⟨S2x320000, .i32⟩ : BufTy).Contents (Elt Ideal)) (x2 : (⟨S320000, .f32⟩ : BufTy).Contents (Elt Ideal)) (x3 : (⟨S5x256x256, .f32⟩ : BufTy).Contents (Elt Ideal)) (n : Fin 40000) (c : Fin 256) :
    val_main_v111 (F := Ideal) x0 x1 x2 x3 (ix2 n c) = contrib (val_main_v108 (F := Ideal) x0 x1 x2) x3 4 n c := by
  rw [val_main_v111_apply]
  generalize val_main_v108 (F := Ideal) x0 x1 x2 = T
  exact rowcol_eq T _ x3 4 (weight4_apply x3) n c

/-! ## The bias -/

/-- The bias is repeated along the rows: the row array's entry (n, c) is b[c]. -/
theorem bias_apply (x4 : (⟨S256, .f32⟩ : BufTy).Contents (Elt Ideal)) (n : Fin 40000) (c : Fin 256) :
    val_main_v114 (F := Ideal) x4 (ix2 n c) = x4 (ix1 c) := by
  rw [val_main_v114_apply, val_main_v113_apply]
  refine congrArg x4 ?_
  funext a
  match a with
  | ⟨0, _⟩ => rfl

/-! ## The result -/

/-- The reference's result is `chebOut` of x, its four recurrence stages, the weights and the bias: at every (n, c)
    both are the five products added left to right and then the bias; the specification's leading zero adds nothing. -/
theorem reference_eq (x0 : (⟨S40000x256, .f32⟩ : BufTy).Contents (Elt Ideal)) (x1 : (⟨S2x320000, .i32⟩ : BufTy).Contents (Elt Ideal)) (x2 : (⟨S320000, .f32⟩ : BufTy).Contents (Elt Ideal)) (x3 : (⟨S5x256x256, .f32⟩ : BufTy).Contents (Elt Ideal)) (x4 : (⟨S256, .f32⟩ : BufTy).Contents (Elt Ideal)) :
    val_main_v115 (F := Ideal) x0 x1 x2 x3 x4
      = chebOut x0 (val_main_v48 (F := Ideal) x0 x1 x2) (val_main_v68 (F := Ideal) x0 x1 x2) (val_main_v88 (F := Ideal) x0 x1 x2) (val_main_v108 (F := Ideal) x0 x1 x2) x3 x4 := by
  funext i
  obtain ⟨n, c, rfl⟩ : ∃ (n : Fin 40000) (c : Fin 256), i = ix2 n c := ⟨i 0, i 1, eq_ix2 i⟩
  rw [chebOut_apply, chebOutAt_eq, val_main_v115_apply, val_main_v112_apply, val_main_v92_apply, val_main_v72_apply,
    val_main_v52_apply, prod0_apply, prod1_apply, prod2_apply, prod3_apply, prod4_apply, bias_apply]
  simp only [Ideal.addf_def]

end Cert.ReferenceIdeal.ChebRef

end
-- ==== Proof.ChebBridge.lean ====
/-
  The kernel program's result is the reference's.

  The stacked array the kernel's first window reads is the five Chebyshev orders T_0 = x, T_1, …, T_4 with a
  leading order axis (the conversion to bf16 is the identity on the extended reals), and the stacked weights
  are the weight argument; so each order's term is that order's product `Σ_j T_k[n, j]·W[k, j, c]`, and the
  kernel's result array is the specification `chebOut` of the five orders, the weights and the bias. The
  orders are the values the reference's own host operations compute from the same arguments, and the reference's
  result is `chebOut` of them too.
-/
import proofs.«131824_j13288628814252_1_alg».proof.Proof.AtIdeal.Result
import proofs.«131824_j13288628814252_1_alg».proof.Proof.AtIdeal.Stack
import proofs.«131824_j13288628814252_1_alg».proof.Proof.ChebGlue
import proofs.«131824_j13288628814252_1_alg».proof.Proof.ChebReference

set_option maxRecDepth 16384

noncomputable section

open scoped BigOperators

namespace Cert.KernelIdeal.Cheb

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Each order's term over the stacked arrays is that order's product over the order's own array. -/
theorem orderTerm_eq (c : Dev nD) (k : Fin 5) (n : Fin 40000) (q : Fin 256) :
    orderTerm (stackArr m c) (weightArr m c) k n q
      = Cert.Cheb.contrib (![(entryVal m c main_arg0 : Vec Ideal S40000x256 .f32), entryVal m c main_v45, entryVal m c main_v61, entryVal m c main_v77, entryVal m c main_v93] k)
          (entryVal m c main_arg3 : Vec Ideal S5x256x256 .f32) k n q := by
  unfold orderTerm Cert.Cheb.contrib
  refine Finset.sum_congr rfl fun j _ => ?_
  have hs : stackArr m c = _ := stack_eq m c
  have hw : weightArr m c = _ := weights_eq m c
  rw [hs, hw, stack_apply, weights_apply]

theorem partialSum_four (A : Vec Ideal S5x40000x256 .bf16) (Wt : Vec Ideal S5x256x256 .bf16) (n : Fin 40000) (q : Fin 256) (h : 4 < 5) :
    partialSum A Wt n q 4 h
      = ((((0 + orderTerm A Wt 0 n q) + orderTerm A Wt 1 n q) + orderTerm A Wt 2 n q) + orderTerm A Wt 3 n q) + orderTerm A Wt 4 n q := rfl

/-- The kernel's result array is the specification of the five orders as the launch finds them. -/
theorem result_eq_chebOut (c : Dev nD) :
    chebResult (stackArr m c) (weightArr m c) (biasArr m c)
      = Cert.Cheb.chebOut (entryVal m c main_arg0 : Vec Ideal S40000x256 .f32) (entryVal m c main_v45) (entryVal m c main_v61) (entryVal m c main_v77) (entryVal m c main_v93)
          (entryVal m c main_arg3 : Vec Ideal S5x256x256 .f32) (entryVal m c main_arg4 : Vec Ideal S256 .f32) := by
  funext i
  obtain ⟨n, q, rfl⟩ : ∃ (n : Fin 40000) (q : Fin 256), i = ix2 n q := ⟨i 0, i 1, eq_ix2 i⟩
  rw [chebResult_apply, Cert.Cheb.chebOut_apply, partialSum_four]
  unfold Cert.Cheb.chebOutAt
  rw [orderTerm_eq m c 0 n q, orderTerm_eq m c 1 n q, orderTerm_eq m c 2 n q, orderTerm_eq m c 3 n q, orderTerm_eq m c 4 n q]
  rfl

/-- The kernel's result array is the reference's result of the same arguments. -/
theorem result_eq_reference (c : Dev nD) :
    chebResult (stackArr m c) (weightArr m c) (biasArr m c)
      = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.ReferenceIdeal.ChebRef.reference_eq, result_eq_chebOut m c, order1_eq m c, order2_eq m c, order3_eq m c, order4_eq m c,
    entry_arg0 m c, entry_arg3 m c, entry_arg4 m c]

end Cert.KernelIdeal.Cheb

end
-- ==== Proof.lean ====
/-
  Chebyshev graph convolution (five orders, 40000 nodes, 256 channels): the Pallas kernel program against its
  jnp reference, over the extended reals.

  Both programs compute the Chebyshev orders T_0 = x, T_1 = L x, T_k = 2 L T_{k-1} - T_{k-2} by the same host
  operations (L the degree-normalised Laplacian, applied as a scatter-add of gathered, weighted rows). The
  reference then adds the five products T_k · W_k and the bias. The kernel program stacks the five orders and
  launches one kernel over (row block, order): it zeroes an accumulator at order 0, adds the order's block
  product at every order, and at order 4 stores accumulator + bias. At the ideal values a change of float
  format is the identity and the matrix unit's product into zero is the plain sum over the contracted axis, so
  the kernel's entry is 0 + Σ_j T_0[n,j]·W[0,j,c] + … + Σ_j T_4[n,j]·W[4,j,c] + b[c] and the reference's is the
  same without the leading 0.

  The three frames: the two kernel programs run through the pipeline library's frame run with an invariant that
  carries the accumulator from one grid position to the next (the same text at both float instances); the
  reference is a host program whose run is read back operation by operation. The ideal pass rewrote nothing, so
  there is nothing to preserve.
-/
import proofs.«131824_j13288628814252_1_alg».proof.Defs
import proofs.«131824_j13288628814252_1_alg».proof.Proof.Gen.Kernel
import proofs.«131824_j13288628814252_1_alg».proof.Proof.Gen.KernelIdeal
import proofs.«131824_j13288628814252_1_alg».proof.Proof.Gen.ReferenceIdeal
import proofs.«131824_j13288628814252_1_alg».proof.Proof.Gen.Pre_finite_inputs
import proofs.«131824_j13288628814252_1_alg».proof.Proof.AtBits.Frame
import proofs.«131824_j13288628814252_1_alg».proof.Proof.ChebBridge

noncomputable section

namespace Cert.Proof

open Idealize.ShloMosaic Idealize.ShloMosaic.TcCoe Idealize.SL.Sem

/-- The word-level kernel program runs to the end, faults nowhere and leaves its arguments unchanged. -/
theorem frame_kernel : Cert.frame_Kernel := fun m ρ _ => Cert.Kernel.Cheb.frame m ρ

/-- So does the idealized kernel program. -/
theorem frame_kernelIdeal : Cert.frame_KernelIdeal := fun m ρ _ => Cert.KernelIdeal.Cheb.frame m ρ

/-- So does the reference: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the same result array: the kernel's is the
    Chebyshev sum of the stacked orders it was launched on, which are the reference's own orders of the same
    arguments, and the reference's result is that sum. -/
theorem algebraic : Cert.algebraic_KernelIdeal_ReferenceIdeal := by
  intro m ρ m' ρ' _ hagree
  refine ⟨fun c => Cert.KernelIdeal.Cheb.chebResult (Cert.KernelIdeal.Cheb.stackArr m c) (Cert.KernelIdeal.Cheb.weightArr m c) (Cert.KernelIdeal.Cheb.biasArr m c),
    Cert.KernelIdeal.Cheb.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v115_eq, (hagree c).1, (hagree c).2.1, (hagree c).2.2.1, (hagree c).2.2.2.1, (hagree c).2.2.2.2]
  exact (Cert.KernelIdeal.Cheb.result_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
